-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x48x48x48 : Shape := ⟨5, ![2, 16, 48, 48, 48]⟩
abbrev S_ : Shape := ⟨0, ![]⟩

class Facts : Prop where
  bcast_S_S2x16x48x48x48 : S_.BroadcastsInDim S2x16x48x48x48 (![] : Fin 0 → Fin S2x16x48x48x48.rank)
  reducesTo_S2x16x48x48x48_S_d0_1_2_3_4 : S2x16x48x48x48.ReducesTo [0, 1, 2, 3, 4] S_
  h_S_ : 0 < S_.numel

variable [Facts]

def fn {F : FTy → Type} [FloatOps F] (main_arg0 : FVec F S2x16x48x48x48 .f32) : IVec S_ 1 :=
  let main_v0 : FVec F S2x16x48x48x48 .f32 := Host.absf main_arg0
  let main_cst : FVec F S_ .f32 := constant S_ .f32 0x7F800000#32
  let main_v1 : FVec F S2x16x48x48x48 .f32 := broadcastInDim S2x16x48x48x48 ![] bcast_S_S2x16x48x48x48 main_cst
  let main_v2 : IVec S2x16x48x48x48 1 := cmpf .olt main_v0 main_v1
  let main_c : IVec S_ 1 := constantI S_ 1 1#1
  let main_v3 : IVec S_ 1 := (fun x v => Host.reduce IntOp.andi x v reducesTo_S2x16x48x48x48_S_d0_1_2_3_4 h_S_) main_v2 main_c
  main_v3
-- ==== Kernel.lean ====
abbrev S2x16x48x48x48 : Shape := ⟨5, ![2, 16, 48, 48, 48]⟩
abbrev S_ : Shape := ⟨0, ![]⟩
abbrev S2x16x50x48x48 : Shape := ⟨5, ![2, 16, 50, 48, 48]⟩
abbrev S2x16x50x2304 : Shape := ⟨4, ![2, 16, 50, 2304]⟩
abbrev S2x16x27x48x2304 : Shape := ⟨5, ![2, 16, 27, 48, 2304]⟩
abbrev S1x1x50x2304 : Shape := ⟨4, ![1, 1, 50, 2304]⟩
abbrev S1x1x27x48x2304 : Shape := ⟨5, ![1, 1, 27, 48, 2304]⟩
abbrev S50x2304 : Shape := ⟨2, ![50, 2304]⟩
abbrev S1x2304 : Shape := ⟨2, ![1, 2304]⟩
abbrev S48x2304 : Shape := ⟨2, ![48, 2304]⟩
abbrev S1x1x1x48x2304 : Shape := ⟨5, ![1, 1, 1, 48, 2304]⟩
abbrev S2x432x110592 : Shape := ⟨3, ![2, 432, 110592]⟩

abbrev nBuf : Space → Nat
  | .hbm => 7
  | .vmem => 4
  | .smem => 0
  | _ => 0

abbrev bufTy : (tb : Table) → Fin (tcTables nBuf tb) → BufTy
  | .hbm, ⟨0, _⟩ => ⟨S2x16x48x48x48, .f32⟩
  | .hbm, ⟨1, _⟩ => ⟨S_, .i32⟩
  | .hbm, ⟨2, _⟩ => ⟨S_, .f32⟩
  | .hbm, ⟨3, _⟩ => ⟨S2x16x50x48x48, .f32⟩
  | .hbm, ⟨4, _⟩ => ⟨S2x16x50x2304, .f32⟩
  | .hbm, ⟨5, _⟩ => ⟨S2x16x27x48x2304, .f32⟩
  | .hbm, ⟨6, _⟩ => ⟨S2x432x110592, .f32⟩
  | .local _ .vmem, ⟨0, _⟩ => ⟨S1x1x50x2304, .f32⟩
  | .local _ .vmem, ⟨1, _⟩ => ⟨S1x1x50x2304, .f32⟩
  | .local _ .vmem, ⟨2, _⟩ => ⟨S1x1x27x48x2304, .f32⟩
  | .local _ .vmem, ⟨3, _⟩ => ⟨S1x1x27x48x2304, .f32⟩
  | _, _ => ⟨S2x16x48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x50x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x27x48x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  pads_S2x16x48x48x48_S2x16x50x48x48_000_000_110_000_000 : S2x16x48x48x48.Pads (![0, 0, 1, 0, 0] : Fin 5 → Nat) ![0, 0, 1, 0, 0] ![0, 0, 0, 0, 0] S2x16x50x48x48
  h_S_ : 0 < S_.numel
  shapeCasts_S2x16x50x48x48_S2x16x50x2304 : S2x16x50x48x48.ShapeCasts S2x16x50x2304
  inb_S1x1x50x2304_S1x1x50x2304_0_0_0_0 : ∀ a, (![0, 0, 0, 0] : Fin 4 → Nat) a + S1x1x50x2304.size a ≤ S1x1x50x2304.size a
  h_S1x1x50x2304 : 0 < S1x1x50x2304.numel
  shapeCasts_S1x1x50x2304_S50x2304 : S1x1x50x2304.ShapeCasts S50x2304
  iota_S1x2304_d1_w32 : S1x2304.Iotas .tc 32 [1]
  natLt_1_32 : 1 < 32
  slices_S50x2304_o0_0_S48x2304 : S50x2304.Slices ![0, 0] S48x2304
  rotates_S48x2304_d1 : S48x2304.Rotates 1 none
  broadcasts_S1x2304_S48x2304 : S1x2304.Broadcasts S48x2304
  inb_S1x1x27x48x2304_S1x1x1x48x2304_0_0_0_0_0 : ∀ a, (![0, 0, 0, 0, 0] : Fin 5 → Nat) a + S1x1x1x48x2304.size a ≤ S1x1x27x48x2304.size a
  h_S1x1x1x48x2304 : 0 < S1x1x1x48x2304.numel
  shapeCasts_S1x1x1x48x2304_S48x2304 : S1x1x1x48x2304.ShapeCasts S48x2304
  shapeCasts_S48x2304_S1x1x1x48x2304 : S48x2304.ShapeCasts S1x1x1x48x2304
  inb_S1x1x27x48x2304_S1x1x1x48x2304_0_0_1_0_0 : ∀ a, (![0, 0, 1, 0, 0] : Fin 5 → Nat) a + S1x1x1x48x2304.size a ≤ S1x1x27x48x2304.size a
  inb_S1x1x27x48x2304_S1x1x1x48x2304_0_0_2_0_0 : ∀ a, (![0, 0, 2, 0, 0] : Fin 5 → Nat) a + S1x1x1x48x2304.size a ≤ S1x1x27x48x2304.size a
  inb_S1x1x27x48x2304_S1x1x1x48x2304_0_0_3_0_0 : ∀ a, (![0, 0, 3, 0, 0] : Fin 5 → Nat) a + S1x1x1x48x2304.size a ≤ S1x1x27x48x2304.size a
  inb_S1x1x27x48x2304_S1x1x1x48x2304_0_0_4_0_0 : ∀ a, (![0, 0, 4, 0, 0] : Fin 5 → Nat) a + S1x1x1x48x2304.size a ≤ S1x1x27x48x2304.size a
  inb_S1x1x27x48x2304_S1x1x1x48x2304_0_0_5_0_0 : ∀ a, (![0, 0, 5, 0, 0] : Fin 5 → Nat) a + S1x1x1x48x2304.size a ≤ S1x1x27x48x2304.size a
  inb_S1x1x27x48x2304_S1x1x1x48x2304_0_0_6_0_0 : ∀ a, (![0, 0, 6, 0, 0] : Fin 5 → Nat) a + S1x1x1x48x2304.size a ≤ S1x1x27x48x2304.size a
  inb_S1x1x27x48x2304_S1x1x1x48x2304_0_0_7_0_0 : ∀ a, (![0, 0, 7, 0, 0] : Fin 5 → Nat) a + S1x1x1x48x2304.size a ≤ S1x1x27x48x2304.size a
  inb_S1x1x27x48x2304_S1x1x1x48x2304_0_0_8_0_0 : ∀ a, (![0, 0, 8, 0, 0] : Fin 5 → Nat) a + S1x1x1x48x2304.size a ≤ S1x1x27x48x2304.size a
  slices_S50x2304_o1_0_S48x2304 : S50x2304.Slices ![1, 0] S48x2304
  inb_S1x1x27x48x2304_S1x1x1x48x2304_0_0_9_0_0 : ∀ a, (![0, 0, 9, 0, 0] : Fin 5 → Nat) a + S1x1x1x48x2304.size a ≤ S1x1x27x48x2304.size a
  inb_S1x1x27x48x2304_S1x1x1x48x2304_0_0_10_0_0 : ∀ a, (![0, 0, 10, 0, 0] : Fin 5 → Nat) a + S1x1x1x48x2304.size a ≤ S1x1x27x48x2304.size a
  inb_S1x1x27x48x2304_S1x1x1x48x2304_0_0_11_0_0 : ∀ a, (![0, 0, 11, 0, 0] : Fin 5 → Nat) a + S1x1x1x48x2304.size a ≤ S1x1x27x48x2304.size a
  inb_S1x1x27x48x2304_S1x1x1x48x2304_0_0_12_0_0 : ∀ a, (![0, 0, 12, 0, 0] : Fin 5 → Nat) a + S1x1x1x48x2304.size a ≤ S1x1x27x48x2304.size a
  inb_S1x1x27x48x2304_S1x1x1x48x2304_0_0_13_0_0 : ∀ a, (![0, 0, 13, 0, 0] : Fin 5 → Nat) a + S1x1x1x48x2304.size a ≤ S1x1x27x48x2304.size a
  inb_S1x1x27x48x2304_S1x1x1x48x2304_0_0_14_0_0 : ∀ a, (![0, 0, 14, 0, 0] : Fin 5 → Nat) a + S1x1x1x48x2304.size a ≤ S1x1x27x48x2304.size a
  inb_S1x1x27x48x2304_S1x1x1x48x2304_0_0_15_0_0 : ∀ a, (![0, 0, 15, 0, 0] : Fin 5 → Nat) a + S1x1x1x48x2304.size a ≤ S1x1x27x48x2304.size a
  inb_S1x1x27x48x2304_S1x1x1x48x2304_0_0_16_0_0 : ∀ a, (![0, 0, 16, 0, 0] : Fin 5 → Nat) a + S1x1x1x48x2304.size a ≤ S1x1x27x48x2304.size a
  inb_S1x1x27x48x2304_S1x1x1x48x2304_0_0_17_0_0 : ∀ a, (![0, 0, 17, 0, 0] : Fin 5 → Nat) a + S1x1x1x48x2304.size a ≤ S1x1x27x48x2304.size a
  slices_S50x2304_o2_0_S48x2304 : S50x2304.Slices ![2, 0] S48x2304
  inb_S1x1x27x48x2304_S1x1x1x48x2304_0_0_18_0_0 : ∀ a, (![0, 0, 18, 0, 0] : Fin 5 → Nat) a + S1x1x1x48x2304.size a ≤ S1x1x27x48x2304.size a
  inb_S1x1x27x48x2304_S1x1x1x48x2304_0_0_19_0_0 : ∀ a, (![0, 0, 19, 0, 0] : Fin 5 → Nat) a + S1x1x1x48x2304.size a ≤ S1x1x27x48x2304.size a
  inb_S1x1x27x48x2304_S1x1x1x48x2304_0_0_20_0_0 : ∀ a, (![0, 0, 20, 0, 0] : Fin 5 → Nat) a + S1x1x1x48x2304.size a ≤ S1x1x27x48x2304.size a
  inb_S1x1x27x48x2304_S1x1x1x48x2304_0_0_21_0_0 : ∀ a, (![0, 0, 21, 0, 0] : Fin 5 → Nat) a + S1x1x1x48x2304.size a ≤ S1x1x27x48x2304.size a
  inb_S1x1x27x48x2304_S1x1x1x48x2304_0_0_22_0_0 : ∀ a, (![0, 0, 22, 0, 0] : Fin 5 → Nat) a + S1x1x1x48x2304.size a ≤ S1x1x27x48x2304.size a
  inb_S1x1x27x48x2304_S1x1x1x48x2304_0_0_23_0_0 : ∀ a, (![0, 0, 23, 0, 0] : Fin 5 → Nat) a + S1x1x1x48x2304.size a ≤ S1x1x27x48x2304.size a
  inb_S1x1x27x48x2304_S1x1x1x48x2304_0_0_24_0_0 : ∀ a, (![0, 0, 24, 0, 0] : Fin 5 → Nat) a + S1x1x1x48x2304.size a ≤ S1x1x27x48x2304.size a
  inb_S1x1x27x48x2304_S1x1x1x48x2304_0_0_25_0_0 : ∀ a, (![0, 0, 25, 0, 0] : Fin 5 → Nat) a + S1x1x1x48x2304.size a ≤ S1x1x27x48x2304.size a
  inb_S1x1x27x48x2304_S1x1x1x48x2304_0_0_26_0_0 : ∀ a, (![0, 0, 26, 0, 0] : Fin 5 → Nat) a + S1x1x1x48x2304.size a ≤ S1x1x27x48x2304.size a
  shapeCasts_S2x16x27x48x2304_S2x432x110592 : S2x16x27x48x2304.ShapeCasts S2x432x110592
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x50x2304.size a ≤ S2x16x50x2304.size a
  hwx0_0 : ∀ i : grid0.Coords, EltTy.bits .f32 = 32 ∨ (Rect.block (s := S2x16x50x2304) S1x1x50x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x27x48x2304.size a ≤ S2x16x27x48x2304.size a
  hwx0_1 : ∀ i : grid0.Coords, EltTy.bits .f32 = 32 ∨ (Rect.block (s := S2x16x27x48x2304) S1x1x27x48x2304.size (cc0_transform_1 i) (hinb0_1 i)).WholeWords (EltTy.packing .f32)

variable [Facts₀]

abbrev win0_0 : Pipeline.Window sig grid0 :=
  Pipeline.Window.ofSpec (Memref.whole main_v1) S1x1x50x2304.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x27x48x2304.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x16x48x48x48 : Shape := ⟨5, ![2, 16, 48, 48, 48]⟩
abbrev S_ : Shape := ⟨0, ![]⟩
abbrev S2x16x50x50x50 : Shape := ⟨5, ![2, 16, 50, 50, 50]⟩
abbrev S2x16x1x48x48x48 : Shape := ⟨6, ![2, 16, 1, 48, 48, 48]⟩
abbrev S2x16x16x48x48x48 : Shape := ⟨6, ![2, 16, 16, 48, 48, 48]⟩
abbrev S2x16x11x48x48x48 : Shape := ⟨6, ![2, 16, 11, 48, 48, 48]⟩
abbrev S2x16x27x48x48x48 : Shape := ⟨6, ![2, 16, 27, 48, 48, 48]⟩
abbrev S2x432x110592 : Shape := ⟨3, ![2, 432, 110592]⟩

abbrev nBuf : Space → Nat
  | .hbm => 62
  | .vmem => 0
  | .smem => 0
  | _ => 0

abbrev bufTy : (tb : Table) → Fin (tcTables nBuf tb) → BufTy
  | .hbm, ⟨0, _⟩ => ⟨S2x16x48x48x48, .f32⟩
  | .hbm, ⟨1, _⟩ => ⟨S_, .i32⟩
  | .hbm, ⟨2, _⟩ => ⟨S_, .f32⟩
  | .hbm, ⟨3, _⟩ => ⟨S2x16x50x50x50, .f32⟩
  | .hbm, ⟨4, _⟩ => ⟨S2x16x48x48x48, .f32⟩
  | .hbm, ⟨5, _⟩ => ⟨S2x16x48x48x48, .f32⟩
  | .hbm, ⟨6, _⟩ => ⟨S2x16x48x48x48, .f32⟩
  | .hbm, ⟨7, _⟩ => ⟨S2x16x48x48x48, .f32⟩
  | .hbm, ⟨8, _⟩ => ⟨S2x16x48x48x48, .f32⟩
  | .hbm, ⟨9, _⟩ => ⟨S2x16x48x48x48, .f32⟩
  | .hbm, ⟨10, _⟩ => ⟨S2x16x48x48x48, .f32⟩
  | .hbm, ⟨11, _⟩ => ⟨S2x16x48x48x48, .f32⟩
  | .hbm, ⟨12, _⟩ => ⟨S2x16x48x48x48, .f32⟩
  | .hbm, ⟨13, _⟩ => ⟨S2x16x48x48x48, .f32⟩
  | .hbm, ⟨14, _⟩ => ⟨S2x16x48x48x48, .f32⟩
  | .hbm, ⟨15, _⟩ => ⟨S2x16x48x48x48, .f32⟩
  | .hbm, ⟨16, _⟩ => ⟨S2x16x48x48x48, .f32⟩
  | .hbm, ⟨17, _⟩ => ⟨S2x16x48x48x48, .f32⟩
  | .hbm, ⟨18, _⟩ => ⟨S2x16x48x48x48, .f32⟩
  | .hbm, ⟨19, _⟩ => ⟨S2x16x48x48x48, .f32⟩
  | .hbm, ⟨20, _⟩ => ⟨S2x16x48x48x48, .f32⟩
  | .hbm, ⟨21, _⟩ => ⟨S2x16x48x48x48, .f32⟩
  | .hbm, ⟨22, _⟩ => ⟨S2x16x48x48x48, .f32⟩
  | .hbm, ⟨23, _⟩ => ⟨S2x16x48x48x48, .f32⟩
  | .hbm, ⟨24, _⟩ => ⟨S2x16x48x48x48, .f32⟩
  | .hbm, ⟨25, _⟩ => ⟨S2x16x48x48x48, .f32⟩
  | .hbm, ⟨26, _⟩ => ⟨S2x16x48x48x48, .f32⟩
  | .hbm, ⟨27, _⟩ => ⟨S2x16x48x48x48, .f32⟩
  | .hbm, ⟨28, _⟩ => ⟨S2x16x48x48x48, .f32⟩
  | .hbm, ⟨29, _⟩ => ⟨S2x16x48x48x48, .f32⟩
  | .hbm, ⟨30, _⟩ => ⟨S2x16x48x48x48, .f32⟩
  | .hbm, ⟨31, _⟩ => ⟨S2x16x1x48x48x48, .f32⟩
  | .hbm, ⟨32, _⟩ => ⟨S2x16x1x48x48x48, .f32⟩
  | .hbm, ⟨33, _⟩ => ⟨S2x16x1x48x48x48, .f32⟩
  | .hbm, ⟨34, _⟩ => ⟨S2x16x1x48x48x48, .f32⟩
  | .hbm, ⟨35, _⟩ => ⟨S2x16x1x48x48x48, .f32⟩
  | .hbm, ⟨36, _⟩ => ⟨S2x16x1x48x48x48, .f32⟩
  | .hbm, ⟨37, _⟩ => ⟨S2x16x1x48x48x48, .f32⟩
  | .hbm, ⟨38, _⟩ => ⟨S2x16x1x48x48x48, .f32⟩
  | .hbm, ⟨39, _⟩ => ⟨S2x16x1x48x48x48, .f32⟩
  | .hbm, ⟨40, _⟩ => ⟨S2x16x1x48x48x48, .f32⟩
  | .hbm, ⟨41, _⟩ => ⟨S2x16x1x48x48x48, .f32⟩
  | .hbm, ⟨42, _⟩ => ⟨S2x16x1x48x48x48, .f32⟩
  | .hbm, ⟨43, _⟩ => ⟨S2x16x1x48x48x48, .f32⟩
  | .hbm, ⟨44, _⟩ => ⟨S2x16x1x48x48x48, .f32⟩
  | .hbm, ⟨45, _⟩ => ⟨S2x16x1x48x48x48, .f32⟩
  | .hbm, ⟨46, _⟩ => ⟨S2x16x1x48x48x48, .f32⟩
  | .hbm, ⟨47, _⟩ => ⟨S2x16x1x48x48x48, .f32⟩
  | .hbm, ⟨48, _⟩ => ⟨S2x16x1x48x48x48, .f32⟩
  | .hbm, ⟨49, _⟩ => ⟨S2x16x1x48x48x48, .f32⟩
  | .hbm, ⟨50, _⟩ => ⟨S2x16x1x48x48x48, .f32⟩
  | .hbm, ⟨51, _⟩ => ⟨S2x16x1x48x48x48, .f32⟩
  | .hbm, ⟨52, _⟩ => ⟨S2x16x1x48x48x48, .f32⟩
  | .hbm, ⟨53, _⟩ => ⟨S2x16x1x48x48x48, .f32⟩
  | .hbm, ⟨54, _⟩ => ⟨S2x16x1x48x48x48, .f32⟩
  | .hbm, ⟨55, _⟩ => ⟨S2x16x1x48x48x48, .f32⟩
  | .hbm, ⟨56, _⟩ => ⟨S2x16x1x48x48x48, .f32⟩
  | .hbm, ⟨57, _⟩ => ⟨S2x16x1x48x48x48, .f32⟩
  | .hbm, ⟨58, _⟩ => ⟨S2x16x16x48x48x48, .f32⟩
  | .hbm, ⟨59, _⟩ => ⟨S2x16x11x48x48x48, .f32⟩
  | .hbm, ⟨60, _⟩ => ⟨S2x16x27x48x48x48, .f32⟩
  | .hbm, ⟨61, _⟩ => ⟨S2x432x110592, .f32⟩
  | _, _ => ⟨S2x16x48x48x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩
abbrev main_v56 : Ref sig .tc := ⟨.hbm, 59, rfl⟩
abbrev main_v57 : Ref sig .tc := ⟨.hbm, 60, rfl⟩
abbrev main_v58 : Ref sig .tc := ⟨.hbm, 61, rfl⟩

abbrev nD : Nat := 1
abbrev τ : Topo := Topo.v7x

variable {F : FTy → Type} [FloatOps F]

class Facts₀ : Prop where
  pads_S2x16x48x48x48_S2x16x50x50x50_000_000_110_110_110 : S2x16x48x48x48.Pads (![0, 0, 1, 1, 1] : Fin 5 → Nat) ![0, 0, 1, 1, 1] ![0, 0, 0, 0, 0] S2x16x50x50x50
  h_S_ : 0 < S_.numel
  slices_S2x16x50x50x50_S2x16x48x48x48_0_0_0_0_0 : S2x16x50x50x50.Slices ![0, 0, 0, 0, 0] S2x16x48x48x48
  slices_S2x16x50x50x50_S2x16x48x48x48_0_0_0_0_1 : S2x16x50x50x50.Slices ![0, 0, 0, 0, 1] S2x16x48x48x48
  slices_S2x16x50x50x50_S2x16x48x48x48_0_0_0_0_2 : S2x16x50x50x50.Slices ![0, 0, 0, 0, 2] S2x16x48x48x48
  slices_S2x16x50x50x50_S2x16x48x48x48_0_0_0_1_0 : S2x16x50x50x50.Slices ![0, 0, 0, 1, 0] S2x16x48x48x48
  slices_S2x16x50x50x50_S2x16x48x48x48_0_0_0_1_1 : S2x16x50x50x50.Slices ![0, 0, 0, 1, 1] S2x16x48x48x48
  slices_S2x16x50x50x50_S2x16x48x48x48_0_0_0_1_2 : S2x16x50x50x50.Slices ![0, 0, 0, 1, 2] S2x16x48x48x48
  slices_S2x16x50x50x50_S2x16x48x48x48_0_0_0_2_0 : S2x16x50x50x50.Slices ![0, 0, 0, 2, 0] S2x16x48x48x48
  slices_S2x16x50x50x50_S2x16x48x48x48_0_0_0_2_1 : S2x16x50x50x50.Slices ![0, 0, 0, 2, 1] S2x16x48x48x48
  slices_S2x16x50x50x50_S2x16x48x48x48_0_0_0_2_2 : S2x16x50x50x50.Slices ![0, 0, 0, 2, 2] S2x16x48x48x48
  slices_S2x16x50x50x50_S2x16x48x48x48_0_0_1_0_0 : S2x16x50x50x50.Slices ![0, 0, 1, 0, 0] S2x16x48x48x48
  slices_S2x16x50x50x50_S2x16x48x48x48_0_0_1_0_1 : S2x16x50x50x50.Slices ![0, 0, 1, 0, 1] S2x16x48x48x48
  slices_S2x16x50x50x50_S2x16x48x48x48_0_0_1_0_2 : S2x16x50x50x50.Slices ![0, 0, 1, 0, 2] S2x16x48x48x48
  slices_S2x16x50x50x50_S2x16x48x48x48_0_0_1_1_0 : S2x16x50x50x50.Slices ![0, 0, 1, 1, 0] S2x16x48x48x48
  slices_S2x16x50x50x50_S2x16x48x48x48_0_0_1_1_1 : S2x16x50x50x50.Slices ![0, 0, 1, 1, 1] S2x16x48x48x48
  slices_S2x16x50x50x50_S2x16x48x48x48_0_0_1_1_2 : S2x16x50x50x50.Slices ![0, 0, 1, 1, 2] S2x16x48x48x48
  slices_S2x16x50x50x50_S2x16x48x48x48_0_0_1_2_0 : S2x16x50x50x50.Slices ![0, 0, 1, 2, 0] S2x16x48x48x48
  slices_S2x16x50x50x50_S2x16x48x48x48_0_0_1_2_1 : S2x16x50x50x50.Slices ![0, 0, 1, 2, 1] S2x16x48x48x48
  slices_S2x16x50x50x50_S2x16x48x48x48_0_0_1_2_2 : S2x16x50x50x50.Slices ![0, 0, 1, 2, 2] S2x16x48x48x48
  slices_S2x16x50x50x50_S2x16x48x48x48_0_0_2_0_0 : S2x16x50x50x50.Slices ![0, 0, 2, 0, 0] S2x16x48x48x48
  slices_S2x16x50x50x50_S2x16x48x48x48_0_0_2_0_1 : S2x16x50x50x50.Slices ![0, 0, 2, 0, 1] S2x16x48x48x48
  slices_S2x16x50x50x50_S2x16x48x48x48_0_0_2_0_2 : S2x16x50x50x50.Slices ![0, 0, 2, 0, 2] S2x16x48x48x48
  slices_S2x16x50x50x50_S2x16x48x48x48_0_0_2_1_0 : S2x16x50x50x50.Slices ![0, 0, 2, 1, 0] S2x16x48x48x48
  slices_S2x16x50x50x50_S2x16x48x48x48_0_0_2_1_1 : S2x16x50x50x50.Slices ![0, 0, 2, 1, 1] S2x16x48x48x48
  slices_S2x16x50x50x50_S2x16x48x48x48_0_0_2_1_2 : S2x16x50x50x50.Slices ![0, 0, 2, 1, 2] S2x16x48x48x48
  slices_S2x16x50x50x50_S2x16x48x48x48_0_0_2_2_0 : S2x16x50x50x50.Slices ![0, 0, 2, 2, 0] S2x16x48x48x48
  slices_S2x16x50x50x50_S2x16x48x48x48_0_0_2_2_1 : S2x16x50x50x50.Slices ![0, 0, 2, 2, 1] S2x16x48x48x48
  slices_S2x16x50x50x50_S2x16x48x48x48_0_0_2_2_2 : S2x16x50x50x50.Slices ![0, 0, 2, 2, 2] S2x16x48x48x48
  bcast_S2x16x48x48x48_S2x16x1x48x48x48_0_1_3_4_5 : S2x16x48x48x48.BroadcastsInDim S2x16x1x48x48x48 (![0, 1, 3, 4, 5] : Fin 5 → Fin S2x16x1x48x48x48.rank)
  concatenates_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x16x48x48x48_d2 : Shape.Concatenates [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48] S2x16x16x48x48x48 2
  concatenates_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x1x48x48x48_S2x16x11x48x48x48_d2 : Shape.Concatenates [S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48, S2x16x1x48x48x48] S2x16x11x48x48x48 2
  concatenates_S2x16x16x48x48x48_S2x16x11x48x48x48_S2x16x27x48x48x48_d2 : Shape.Concatenates [S2x16x16x48x48x48, S2x16x11x48x48x48] S2x16x27x48x48x48 2
  shapeCasts_S2x16x27x48x48x48_S2x432x110592 : S2x16x27x48x48x48.ShapeCasts S2x432x110592

variable [Facts₀]

class Facts : Prop extends Facts₀ where

variable [Facts]
-- ==== Proof.Spec.lean ====
/-
  The 3×3×3 unfold of a volume, as one function of the input.

  For an input x of shape [2, 16, 48, 48, 48] the result has shape [2, 16·27, 48·48·48]. Its entry at
  (b, c·27 + k, h·2304 + w·48 + d), where k = 9·i + 3·j + l with i, j, l ∈ {0, 1, 2}, is the input at
  (b, c, h + i − 1, w + j − 1, d + l − 1) when that position lies inside the volume, and 0 otherwise: the k-th of
  the 27 neighbours of the voxel (h, w, d), with zeros beyond the border. Every coordinate below is a natural
  number, so that each index computation is linear arithmetic with quotients and remainders by literals.
-/
import Idealize.ShloMosaic.Lib.ValueIdx

noncomputable section

namespace Cert.Unfold3

open Idealize.ShloMosaic Idealize.ShloMosaic.ValueIdx

/-- The input volume's shape. -/
abbrev SX : Shape := ⟨5, ![2, 16, 48, 48, 48]⟩
/-- The result's shape. -/
abbrev SO : Shape := ⟨3, ![2, 432, 110592]⟩

/-- An index of the input from five naturals, each reduced modulo its extent: total, and the identity on coordinates
    in range. -/
def xAt (b c h w d : Nat) : SX.Idx :=
  ix5 (⟨b % 2, Nat.mod_lt _ (by decide)⟩ : Fin 2) (⟨c % 16, Nat.mod_lt _ (by decide)⟩ : Fin 16)
    (⟨h % 48, Nat.mod_lt _ (by decide)⟩ : Fin 48) (⟨w % 48, Nat.mod_lt _ (by decide)⟩ : Fin 48)
    (⟨d % 48, Nat.mod_lt _ (by decide)⟩ : Fin 48)

/-- An index of the input is `xAt` of any five naturals equal to its coordinates. -/
theorem xAt_eq (i : SX.Idx) {b c h w d : Nat} (hb : (i 0).val = b) (hc : (i 1).val = c) (hh : (i 2).val = h)
    (hw : (i 3).val = w) (hd : (i 4).val = d) : xAt b c h w d = i := by
  have h0 : (i 0).val < 2 := (i 0).isLt
  have h1 : (i 1).val < 16 := (i 1).isLt
  have h2 : (i 2).val < 48 := (i 2).isLt
  have h3 : (i 3).val < 48 := (i 3).isLt
  have h4 : (i 4).val < 48 := (i 4).isLt
  subst hb hc hh hw hd
  funext a
  match a with
  | ⟨0, _⟩ => exact Fin.ext (Nat.mod_eq_of_lt h0)
  | ⟨1, _⟩ => exact Fin.ext (Nat.mod_eq_of_lt h1)
  | ⟨2, _⟩ => exact Fin.ext (Nat.mod_eq_of_lt h2)
  | ⟨3, _⟩ => exact Fin.ext (Nat.mod_eq_of_lt h3)
  | ⟨4, _⟩ => exact Fin.ext (Nat.mod_eq_of_lt h4)

/-- The volume padded by one zero voxel on every side of its three spatial axes, at the padded coordinates
    (H, W, D) ∈ [0, 50)³: the input at (H − 1, W − 1, D − 1) inside, zero on the border. -/
def padded (x : FVec Ideal SX .f32) (b c H W D : Nat) : EReal :=
  if 1 ≤ H ∧ H ≤ 48 ∧ 1 ≤ W ∧ W ≤ 48 ∧ 1 ≤ D ∧ D ≤ 48 then x (xAt b c (H - 1) (W - 1) (D - 1)) else 0

/-- The k-th neighbour (k = 9·i + 3·j + l) of the voxel (h, w, d) in channel c of batch b. -/
def patch (x : FVec Ideal SX .f32) (b c k h w d : Nat) : EReal :=
  padded x b c (h + k / 9) (w + k / 3 % 3) (d + k % 3)

/-- The unfolded result: the channels and neighbours merged into one axis, the voxels into another. -/
def G (x : FVec Ideal SX .f32) : FVec Ideal SO .f32 := fun o =>
  patch x (o 0).val ((o 1).val / 27) ((o 1).val % 27) ((o 2).val / 2304) ((o 2).val / 48 % 48) ((o 2).val % 48)

end Cert.Unfold3

end
-- ==== Proof.RefSide.lean ====
/-
  The reference computes the unfold.

  The reference pads the volume by one zero voxel on each side of its three spatial axes, cuts the 27 windows of
  extent 48³ at the offsets (i, j, l) ∈ {0, 1, 2}³, stacks them along a new axis in the order 9·i + 3·j + l (a unit
  axis inserted into each, two concatenations of 16 and 11 windows, then the two joined), and merges the channel axis
  with the new one and the three spatial axes into one. Read at an index, entry (b, 27·c + k, 2304·h + 48·w + d) is the
  padded volume at (b, c, h + k / 9, w + k / 3 % 3, d + k % 3).
-/
import proofs.«150925_j2757369004156_1_alg».proof.Proof.Spec
import proofs.«150925_j2757369004156_1_alg».proof.Proof.RefRead
import Idealize.ShloMosaic.Lib.ValueIdx
import Idealize.ShloMosaic.Lib.ValueIdxRank6
import Idealize.ShloMosaic.Lib.Pipeline.Value
import Idealize.ShloMosaic.Lib.KernelVsHost

noncomputable section

namespace Cert.RefSide

open Cert.ReferenceIdeal Cert.ReferenceIdeal.Gen Cert.ReferenceIdeal.ReadP Idealize.ShloMosaic Idealize.ShloMosaic.TcCoe
open Idealize.ShloMosaic.ValueIdx Cert.Unfold3

/-! ## The padded volume -/

/-- The padding value, the integer zero converted, is the real zero. -/
theorem padValue_eq (i : S_.Idx) : val_main_call0_v0 (F := Ideal) i = 0 := by
  show (Scalar.sitofp .f32 0#32 : Ideal .f32) = 0
  exact sitofp_zero

/-- Equal coordinates give equal entries of the padded volume. -/
theorem padded_congr (x : FVec Ideal S2x16x48x48x48 .f32) {b c H W D b' c' H' W' D' : Nat} (hb : b = b') (hc : c = c')
    (hH : H = H') (hW : W = W') (hD : D = D') : padded x b c H W D = padded x b' c' H' W' D' := by
  subst hb hc hH hW hD; rfl

/-- Equal neighbour numbers give equal neighbours. -/
theorem patch_congr (x : FVec Ideal S2x16x48x48x48 .f32) (b c h w d : Nat) {k k' : Nat} (e : k = k') :
    patch x b c k h w d = patch x b c k' h w d := by
  subst e; rfl

/-- The reference's padded array is the padded volume: inside, the coordinates less one on the spatial axes; on the
    border, where some spatial coordinate is 0 or 49, the padding value. -/
theorem pad_read (x : FVec Ideal S2x16x48x48x48 .f32) (J : S2x16x50x50x50.Idx) :
    val_main_v0 (F := Ideal) x J = padded x (J 0).val (J 1).val (J 2).val (J 3).val (J 4).val := by
  have h0 : (J 0).val < 2 := (J 0).isLt
  have h1 : (J 1).val < 16 := (J 1).isLt
  have h2 : (J 2).val < 50 := (J 2).isLt
  have h3 : (J 3).val < 50 := (J 3).isLt
  have h4 : (J 4).val < 50 := (J 4).isLt
  unfold val_main_v0 padded
  by_cases hin : 1 ≤ (J 2).val ∧ (J 2).val ≤ 48 ∧ 1 ≤ (J 3).val ∧ (J 3).val ≤ 48 ∧ 1 ≤ (J 4).val ∧ (J 4).val ≤ 48
  · rw [if_pos hin]
    exact pad_apply_of_inside _ _ _ x _ _ _ J
      (xAt (J 0).val (J 1).val ((J 2).val - 1) ((J 3).val - 1) ((J 4).val - 1)) (fun a => match a with
      | ⟨0, _⟩ => by show (J 0).val = 0 + ((J 0).val % 2) * 1; omega
      | ⟨1, _⟩ => by show (J 1).val = 0 + ((J 1).val % 16) * 1; omega
      | ⟨2, _⟩ => by show (J 2).val = 1 + (((J 2).val - 1) % 48) * 1; omega
      | ⟨3, _⟩ => by show (J 3).val = 1 + (((J 3).val - 1) % 48) * 1; omega
      | ⟨4, _⟩ => by show (J 4).val = 1 + (((J 4).val - 1) % 48) * 1; omega)
  · rw [if_neg hin]
    by_cases c2 : 1 ≤ (J 2).val ∧ (J 2).val ≤ 48
    · by_cases c3 : 1 ≤ (J 3).val ∧ (J 3).val ≤ 48
      · have c4 : ¬(1 ≤ (J 4).val ∧ (J 4).val ≤ 48) := fun c4 => hin ⟨c2.1, c2.2, c3.1, c3.2, c4.1, c4.2⟩
        refine (pad_apply_of_not_inside _ _ _ x _ _ _ J (4 : Fin 5) ?_).trans (padValue_eq _)
        show ¬(1 ≤ (J 4).val ∧ ((J 4).val - 1) % 1 = 0 ∧ ((J 4).val - 1) / 1 < 48)
        omega
      · refine (pad_apply_of_not_inside _ _ _ x _ _ _ J (3 : Fin 5) ?_).trans (padValue_eq _)
        show ¬(1 ≤ (J 3).val ∧ ((J 3).val - 1) % 1 = 0 ∧ ((J 3).val - 1) / 1 < 48)
        omega
    · refine (pad_apply_of_not_inside _ _ _ x _ _ _ J (2 : Fin 5) ?_).trans (padValue_eq _)
      show ¬(1 ≤ (J 2).val ∧ ((J 2).val - 1) % 1 = 0 ∧ ((J 2).val - 1) / 1 < 48)
      omega

/-! ## The 27 windows, each with its unit axis -/

/-- Window 0, cut at the offsets (0, 0, 0), is neighbour 0 of every voxel. -/
theorem window0 (x : FVec Ideal S2x16x48x48x48 .f32) (b : Fin 2) (c : Fin 16) (u : Fin 1) (h w d : Fin 48) :
    val_main_v28 (F := Ideal) x (ix6 b c u h w d) = patch x b.val c.val 0 h.val w.val d.val := by
  rw [val_main_v28_apply, val_main_v1_apply, pad_read]
  unfold patch
  exact padded_congr x rfl rfl (by show h.val = h.val + 0 / 9; omega)
    (by show w.val = w.val + 0 / 3 % 3; omega) (by show d.val = d.val + 0 % 3; omega)

/-- Window 1, cut at the offsets (0, 0, 1), is neighbour 1 of every voxel. -/
theorem window1 (x : FVec Ideal S2x16x48x48x48 .f32) (b : Fin 2) (c : Fin 16) (u : Fin 1) (h w d : Fin 48) :
    val_main_v29 (F := Ideal) x (ix6 b c u h w d) = patch x b.val c.val 1 h.val w.val d.val := by
  rw [val_main_v29_apply, val_main_v2_apply, pad_read]
  unfold patch
  exact padded_congr x rfl rfl (by show h.val = h.val + 1 / 9; omega)
    (by show w.val = w.val + 1 / 3 % 3; omega) (by show 1 + d.val = d.val + 1 % 3; omega)

/-- Window 2, cut at the offsets (0, 0, 2), is neighbour 2 of every voxel. -/
theorem window2 (x : FVec Ideal S2x16x48x48x48 .f32) (b : Fin 2) (c : Fin 16) (u : Fin 1) (h w d : Fin 48) :
    val_main_v30 (F := Ideal) x (ix6 b c u h w d) = patch x b.val c.val 2 h.val w.val d.val := by
  rw [val_main_v30_apply, val_main_v3_apply, pad_read]
  unfold patch
  exact padded_congr x rfl rfl (by show h.val = h.val + 2 / 9; omega)
    (by show w.val = w.val + 2 / 3 % 3; omega) (by show 2 + d.val = d.val + 2 % 3; omega)

/-- Window 3, cut at the offsets (0, 1, 0), is neighbour 3 of every voxel. -/
theorem window3 (x : FVec Ideal S2x16x48x48x48 .f32) (b : Fin 2) (c : Fin 16) (u : Fin 1) (h w d : Fin 48) :
    val_main_v31 (F := Ideal) x (ix6 b c u h w d) = patch x b.val c.val 3 h.val w.val d.val := by
  rw [val_main_v31_apply, val_main_v4_apply, pad_read]
  unfold patch
  exact padded_congr x rfl rfl (by show h.val = h.val + 3 / 9; omega)
    (by show 1 + w.val = w.val + 3 / 3 % 3; omega) (by show d.val = d.val + 3 % 3; omega)

/-- Window 4, cut at the offsets (0, 1, 1), is neighbour 4 of every voxel. -/
theorem window4 (x : FVec Ideal S2x16x48x48x48 .f32) (b : Fin 2) (c : Fin 16) (u : Fin 1) (h w d : Fin 48) :
    val_main_v32 (F := Ideal) x (ix6 b c u h w d) = patch x b.val c.val 4 h.val w.val d.val := by
  rw [val_main_v32_apply, val_main_v5_apply, pad_read]
  unfold patch
  exact padded_congr x rfl rfl (by show h.val = h.val + 4 / 9; omega)
    (by show 1 + w.val = w.val + 4 / 3 % 3; omega) (by show 1 + d.val = d.val + 4 % 3; omega)

/-- Window 5, cut at the offsets (0, 1, 2), is neighbour 5 of every voxel. -/
theorem window5 (x : FVec Ideal S2x16x48x48x48 .f32) (b : Fin 2) (c : Fin 16) (u : Fin 1) (h w d : Fin 48) :
    val_main_v33 (F := Ideal) x (ix6 b c u h w d) = patch x b.val c.val 5 h.val w.val d.val := by
  rw [val_main_v33_apply, val_main_v6_apply, pad_read]
  unfold patch
  exact padded_congr x rfl rfl (by show h.val = h.val + 5 / 9; omega)
    (by show 1 + w.val = w.val + 5 / 3 % 3; omega) (by show 2 + d.val = d.val + 5 % 3; omega)

/-- Window 6, cut at the offsets (0, 2, 0), is neighbour 6 of every voxel. -/
theorem window6 (x : FVec Ideal S2x16x48x48x48 .f32) (b : Fin 2) (c : Fin 16) (u : Fin 1) (h w d : Fin 48) :
    val_main_v34 (F := Ideal) x (ix6 b c u h w d) = patch x b.val c.val 6 h.val w.val d.val := by
  rw [val_main_v34_apply, val_main_v7_apply, pad_read]
  unfold patch
  exact padded_congr x rfl rfl (by show h.val = h.val + 6 / 9; omega)
    (by show 2 + w.val = w.val + 6 / 3 % 3; omega) (by show d.val = d.val + 6 % 3; omega)

/-- Window 7, cut at the offsets (0, 2, 1), is neighbour 7 of every voxel. -/
theorem window7 (x : FVec Ideal S2x16x48x48x48 .f32) (b : Fin 2) (c : Fin 16) (u : Fin 1) (h w d : Fin 48) :
    val_main_v35 (F := Ideal) x (ix6 b c u h w d) = patch x b.val c.val 7 h.val w.val d.val := by
  rw [val_main_v35_apply, val_main_v8_apply, pad_read]
  unfold patch
  exact padded_congr x rfl rfl (by show h.val = h.val + 7 / 9; omega)
    (by show 2 + w.val = w.val + 7 / 3 % 3; omega) (by show 1 + d.val = d.val + 7 % 3; omega)

/-- Window 8, cut at the offsets (0, 2, 2), is neighbour 8 of every voxel. -/
theorem window8 (x : FVec Ideal S2x16x48x48x48 .f32) (b : Fin 2) (c : Fin 16) (u : Fin 1) (h w d : Fin 48) :
    val_main_v36 (F := Ideal) x (ix6 b c u h w d) = patch x b.val c.val 8 h.val w.val d.val := by
  rw [val_main_v36_apply, val_main_v9_apply, pad_read]
  unfold patch
  exact padded_congr x rfl rfl (by show h.val = h.val + 8 / 9; omega)
    (by show 2 + w.val = w.val + 8 / 3 % 3; omega) (by show 2 + d.val = d.val + 8 % 3; omega)

/-- Window 9, cut at the offsets (1, 0, 0), is neighbour 9 of every voxel. -/
theorem window9 (x : FVec Ideal S2x16x48x48x48 .f32) (b : Fin 2) (c : Fin 16) (u : Fin 1) (h w d : Fin 48) :
    val_main_v37 (F := Ideal) x (ix6 b c u h w d) = patch x b.val c.val 9 h.val w.val d.val := by
  rw [val_main_v37_apply, val_main_v10_apply, pad_read]
  unfold patch
  exact padded_congr x rfl rfl (by show 1 + h.val = h.val + 9 / 9; omega)
    (by show w.val = w.val + 9 / 3 % 3; omega) (by show d.val = d.val + 9 % 3; omega)

/-- Window 10, cut at the offsets (1, 0, 1), is neighbour 10 of every voxel. -/
theorem window10 (x : FVec Ideal S2x16x48x48x48 .f32) (b : Fin 2) (c : Fin 16) (u : Fin 1) (h w d : Fin 48) :
    val_main_v38 (F := Ideal) x (ix6 b c u h w d) = patch x b.val c.val 10 h.val w.val d.val := by
  rw [val_main_v38_apply, val_main_v11_apply, pad_read]
  unfold patch
  exact padded_congr x rfl rfl (by show 1 + h.val = h.val + 10 / 9; omega)
    (by show w.val = w.val + 10 / 3 % 3; omega) (by show 1 + d.val = d.val + 10 % 3; omega)

/-- Window 11, cut at the offsets (1, 0, 2), is neighbour 11 of every voxel. -/
theorem window11 (x : FVec Ideal S2x16x48x48x48 .f32) (b : Fin 2) (c : Fin 16) (u : Fin 1) (h w d : Fin 48) :
    val_main_v39 (F := Ideal) x (ix6 b c u h w d) = patch x b.val c.val 11 h.val w.val d.val := by
  rw [val_main_v39_apply, val_main_v12_apply, pad_read]
  unfold patch
  exact padded_congr x rfl rfl (by show 1 + h.val = h.val + 11 / 9; omega)
    (by show w.val = w.val + 11 / 3 % 3; omega) (by show 2 + d.val = d.val + 11 % 3; omega)

/-- Window 12, cut at the offsets (1, 1, 0), is neighbour 12 of every voxel. -/
theorem window12 (x : FVec Ideal S2x16x48x48x48 .f32) (b : Fin 2) (c : Fin 16) (u : Fin 1) (h w d : Fin 48) :
    val_main_v40 (F := Ideal) x (ix6 b c u h w d) = patch x b.val c.val 12 h.val w.val d.val := by
  rw [val_main_v40_apply, val_main_v13_apply, pad_read]
  unfold patch
  exact padded_congr x rfl rfl (by show 1 + h.val = h.val + 12 / 9; omega)
    (by show 1 + w.val = w.val + 12 / 3 % 3; omega) (by show d.val = d.val + 12 % 3; omega)

/-- Window 13, cut at the offsets (1, 1, 1), is neighbour 13 of every voxel. -/
theorem window13 (x : FVec Ideal S2x16x48x48x48 .f32) (b : Fin 2) (c : Fin 16) (u : Fin 1) (h w d : Fin 48) :
    val_main_v41 (F := Ideal) x (ix6 b c u h w d) = patch x b.val c.val 13 h.val w.val d.val := by
  rw [val_main_v41_apply, val_main_v14_apply, pad_read]
  unfold patch
  exact padded_congr x rfl rfl (by show 1 + h.val = h.val + 13 / 9; omega)
    (by show 1 + w.val = w.val + 13 / 3 % 3; omega) (by show 1 + d.val = d.val + 13 % 3; omega)

/-- Window 14, cut at the offsets (1, 1, 2), is neighbour 14 of every voxel. -/
theorem window14 (x : FVec Ideal S2x16x48x48x48 .f32) (b : Fin 2) (c : Fin 16) (u : Fin 1) (h w d : Fin 48) :
    val_main_v42 (F := Ideal) x (ix6 b c u h w d) = patch x b.val c.val 14 h.val w.val d.val := by
  rw [val_main_v42_apply, val_main_v15_apply, pad_read]
  unfold patch
  exact padded_congr x rfl rfl (by show 1 + h.val = h.val + 14 / 9; omega)
    (by show 1 + w.val = w.val + 14 / 3 % 3; omega) (by show 2 + d.val = d.val + 14 % 3; omega)

/-- Window 15, cut at the offsets (1, 2, 0), is neighbour 15 of every voxel. -/
theorem window15 (x : FVec Ideal S2x16x48x48x48 .f32) (b : Fin 2) (c : Fin 16) (u : Fin 1) (h w d : Fin 48) :
    val_main_v43 (F := Ideal) x (ix6 b c u h w d) = patch x b.val c.val 15 h.val w.val d.val := by
  rw [val_main_v43_apply, val_main_v16_apply, pad_read]
  unfold patch
  exact padded_congr x rfl rfl (by show 1 + h.val = h.val + 15 / 9; omega)
    (by show 2 + w.val = w.val + 15 / 3 % 3; omega) (by show d.val = d.val + 15 % 3; omega)

/-- Window 16, cut at the offsets (1, 2, 1), is neighbour 16 of every voxel. -/
theorem window16 (x : FVec Ideal S2x16x48x48x48 .f32) (b : Fin 2) (c : Fin 16) (u : Fin 1) (h w d : Fin 48) :
    val_main_v44 (F := Ideal) x (ix6 b c u h w d) = patch x b.val c.val 16 h.val w.val d.val := by
  rw [val_main_v44_apply, val_main_v17_apply, pad_read]
  unfold patch
  exact padded_congr x rfl rfl (by show 1 + h.val = h.val + 16 / 9; omega)
    (by show 2 + w.val = w.val + 16 / 3 % 3; omega) (by show 1 + d.val = d.val + 16 % 3; omega)

/-- Window 17, cut at the offsets (1, 2, 2), is neighbour 17 of every voxel. -/
theorem window17 (x : FVec Ideal S2x16x48x48x48 .f32) (b : Fin 2) (c : Fin 16) (u : Fin 1) (h w d : Fin 48) :
    val_main_v45 (F := Ideal) x (ix6 b c u h w d) = patch x b.val c.val 17 h.val w.val d.val := by
  rw [val_main_v45_apply, val_main_v18_apply, pad_read]
  unfold patch
  exact padded_congr x rfl rfl (by show 1 + h.val = h.val + 17 / 9; omega)
    (by show 2 + w.val = w.val + 17 / 3 % 3; omega) (by show 2 + d.val = d.val + 17 % 3; omega)

/-- Window 18, cut at the offsets (2, 0, 0), is neighbour 18 of every voxel. -/
theorem window18 (x : FVec Ideal S2x16x48x48x48 .f32) (b : Fin 2) (c : Fin 16) (u : Fin 1) (h w d : Fin 48) :
    val_main_v46 (F := Ideal) x (ix6 b c u h w d) = patch x b.val c.val 18 h.val w.val d.val := by
  rw [val_main_v46_apply, val_main_v19_apply, pad_read]
  unfold patch
  exact padded_congr x rfl rfl (by show 2 + h.val = h.val + 18 / 9; omega)
    (by show w.val = w.val + 18 / 3 % 3; omega) (by show d.val = d.val + 18 % 3; omega)

/-- Window 19, cut at the offsets (2, 0, 1), is neighbour 19 of every voxel. -/
theorem window19 (x : FVec Ideal S2x16x48x48x48 .f32) (b : Fin 2) (c : Fin 16) (u : Fin 1) (h w d : Fin 48) :
    val_main_v47 (F := Ideal) x (ix6 b c u h w d) = patch x b.val c.val 19 h.val w.val d.val := by
  rw [val_main_v47_apply, val_main_v20_apply, pad_read]
  unfold patch
  exact padded_congr x rfl rfl (by show 2 + h.val = h.val + 19 / 9; omega)
    (by show w.val = w.val + 19 / 3 % 3; omega) (by show 1 + d.val = d.val + 19 % 3; omega)

/-- Window 20, cut at the offsets (2, 0, 2), is neighbour 20 of every voxel. -/
theorem window20 (x : FVec Ideal S2x16x48x48x48 .f32) (b : Fin 2) (c : Fin 16) (u : Fin 1) (h w d : Fin 48) :
    val_main_v48 (F := Ideal) x (ix6 b c u h w d) = patch x b.val c.val 20 h.val w.val d.val := by
  rw [val_main_v48_apply, val_main_v21_apply, pad_read]
  unfold patch
  exact padded_congr x rfl rfl (by show 2 + h.val = h.val + 20 / 9; omega)
    (by show w.val = w.val + 20 / 3 % 3; omega) (by show 2 + d.val = d.val + 20 % 3; omega)

/-- Window 21, cut at the offsets (2, 1, 0), is neighbour 21 of every voxel. -/
theorem window21 (x : FVec Ideal S2x16x48x48x48 .f32) (b : Fin 2) (c : Fin 16) (u : Fin 1) (h w d : Fin 48) :
    val_main_v49 (F := Ideal) x (ix6 b c u h w d) = patch x b.val c.val 21 h.val w.val d.val := by
  rw [val_main_v49_apply, val_main_v22_apply, pad_read]
  unfold patch
  exact padded_congr x rfl rfl (by show 2 + h.val = h.val + 21 / 9; omega)
    (by show 1 + w.val = w.val + 21 / 3 % 3; omega) (by show d.val = d.val + 21 % 3; omega)

/-- Window 22, cut at the offsets (2, 1, 1), is neighbour 22 of every voxel. -/
theorem window22 (x : FVec Ideal S2x16x48x48x48 .f32) (b : Fin 2) (c : Fin 16) (u : Fin 1) (h w d : Fin 48) :
    val_main_v50 (F := Ideal) x (ix6 b c u h w d) = patch x b.val c.val 22 h.val w.val d.val := by
  rw [val_main_v50_apply, val_main_v23_apply, pad_read]
  unfold patch
  exact padded_congr x rfl rfl (by show 2 + h.val = h.val + 22 / 9; omega)
    (by show 1 + w.val = w.val + 22 / 3 % 3; omega) (by show 1 + d.val = d.val + 22 % 3; omega)

/-- Window 23, cut at the offsets (2, 1, 2), is neighbour 23 of every voxel. -/
theorem window23 (x : FVec Ideal S2x16x48x48x48 .f32) (b : Fin 2) (c : Fin 16) (u : Fin 1) (h w d : Fin 48) :
    val_main_v51 (F := Ideal) x (ix6 b c u h w d) = patch x b.val c.val 23 h.val w.val d.val := by
  rw [val_main_v51_apply, val_main_v24_apply, pad_read]
  unfold patch
  exact padded_congr x rfl rfl (by show 2 + h.val = h.val + 23 / 9; omega)
    (by show 1 + w.val = w.val + 23 / 3 % 3; omega) (by show 2 + d.val = d.val + 23 % 3; omega)

/-- Window 24, cut at the offsets (2, 2, 0), is neighbour 24 of every voxel. -/
theorem window24 (x : FVec Ideal S2x16x48x48x48 .f32) (b : Fin 2) (c : Fin 16) (u : Fin 1) (h w d : Fin 48) :
    val_main_v52 (F := Ideal) x (ix6 b c u h w d) = patch x b.val c.val 24 h.val w.val d.val := by
  rw [val_main_v52_apply, val_main_v25_apply, pad_read]
  unfold patch
  exact padded_congr x rfl rfl (by show 2 + h.val = h.val + 24 / 9; omega)
    (by show 2 + w.val = w.val + 24 / 3 % 3; omega) (by show d.val = d.val + 24 % 3; omega)

/-- Window 25, cut at the offsets (2, 2, 1), is neighbour 25 of every voxel. -/
theorem window25 (x : FVec Ideal S2x16x48x48x48 .f32) (b : Fin 2) (c : Fin 16) (u : Fin 1) (h w d : Fin 48) :
    val_main_v53 (F := Ideal) x (ix6 b c u h w d) = patch x b.val c.val 25 h.val w.val d.val := by
  rw [val_main_v53_apply, val_main_v26_apply, pad_read]
  unfold patch
  exact padded_congr x rfl rfl (by show 2 + h.val = h.val + 25 / 9; omega)
    (by show 2 + w.val = w.val + 25 / 3 % 3; omega) (by show 1 + d.val = d.val + 25 % 3; omega)

/-- Window 26, cut at the offsets (2, 2, 2), is neighbour 26 of every voxel. -/
theorem window26 (x : FVec Ideal S2x16x48x48x48 .f32) (b : Fin 2) (c : Fin 16) (u : Fin 1) (h w d : Fin 48) :
    val_main_v54 (F := Ideal) x (ix6 b c u h w d) = patch x b.val c.val 26 h.val w.val d.val := by
  rw [val_main_v54_apply, val_main_v27_apply, pad_read]
  unfold patch
  exact padded_congr x rfl rfl (by show 2 + h.val = h.val + 26 / 9; omega)
    (by show 2 + w.val = w.val + 26 / 3 % 3; omega) (by show 2 + d.val = d.val + 26 % 3; omega)

/-! ## The windows stacked -/

/-- A stack of `N` windows along axis 2, read at an index: the window its coordinate on that axis names, at the
    same coordinates on the other axes. -/
theorem stack_read {α : Type} {N : Nat} (f : Fin N → (S2x16x1x48x48x48.Idx → α))
    (h : Shape.Concatenates ((List.ofFn fun n : Fin N => (⟨S2x16x1x48x48x48, f n⟩ : (s : Shape) × (s.Idx → α))).map (·.1))
      (⟨6, ![2, 16, N, 48, 48, 48]⟩ : Shape) (2 : Fin 6))
    (j : (⟨6, ![2, 16, N, 48, 48, 48]⟩ : Shape).Idx) :
    concatenate (⟨6, ![2, 16, N, 48, 48, 48]⟩ : Shape) (2 : Fin 6)
        (List.ofFn fun n : Fin N => (⟨S2x16x1x48x48x48, f n⟩ : (s : Shape) × (s.Idx → α))) h j
      = f ⟨(j 2).val, (j 2).isLt⟩ (ix6 (⟨(j 0).val, (j 0).isLt⟩ : Fin 2) (⟨(j 1).val, (j 1).isLt⟩ : Fin 16) (0 : Fin 1)
          (⟨(j 3).val, (j 3).isLt⟩ : Fin 48) (⟨(j 4).val, (j 4).isLt⟩ : Fin 48) (⟨(j 5).val, (j 5).isLt⟩ : Fin 48)) :=
  concatenate_ofFn_unit_apply (t := (⟨6, ![2, 16, N, 48, 48, 48]⟩ : Shape)) (s₁ := S2x16x1x48x48x48) (2 : Fin 6) f h rfl
    rfl j ⟨(j 2).val, (j 2).isLt⟩ rfl _
    (fun b => match b with
      | ⟨0, _⟩ => fun _ => rfl
      | ⟨1, _⟩ => fun _ => rfl
      | ⟨2, _⟩ => fun hne => absurd rfl hne
      | ⟨3, _⟩ => fun _ => rfl
      | ⟨4, _⟩ => fun _ => rfl
      | ⟨5, _⟩ => fun _ => rfl)

/-- The first 16 windows, by number. -/
def windows16 (x : FVec Ideal S2x16x48x48x48 .f32) : Fin 16 → (S2x16x1x48x48x48.Idx → EReal)
  | ⟨0, _⟩ => val_main_v28 (F := Ideal) x
  | ⟨1, _⟩ => val_main_v29 (F := Ideal) x
  | ⟨2, _⟩ => val_main_v30 (F := Ideal) x
  | ⟨3, _⟩ => val_main_v31 (F := Ideal) x
  | ⟨4, _⟩ => val_main_v32 (F := Ideal) x
  | ⟨5, _⟩ => val_main_v33 (F := Ideal) x
  | ⟨6, _⟩ => val_main_v34 (F := Ideal) x
  | ⟨7, _⟩ => val_main_v35 (F := Ideal) x
  | ⟨8, _⟩ => val_main_v36 (F := Ideal) x
  | ⟨9, _⟩ => val_main_v37 (F := Ideal) x
  | ⟨10, _⟩ => val_main_v38 (F := Ideal) x
  | ⟨11, _⟩ => val_main_v39 (F := Ideal) x
  | ⟨12, _⟩ => val_main_v40 (F := Ideal) x
  | ⟨13, _⟩ => val_main_v41 (F := Ideal) x
  | ⟨14, _⟩ => val_main_v42 (F := Ideal) x
  | ⟨15, _⟩ => val_main_v43 (F := Ideal) x
  | ⟨_ + 16, h⟩ => absurd h (Nat.not_lt.2 (Nat.le_add_left _ _))

/-- The last 11 windows, by number. -/
def windows11 (x : FVec Ideal S2x16x48x48x48 .f32) : Fin 11 → (S2x16x1x48x48x48.Idx → EReal)
  | ⟨0, _⟩ => val_main_v44 (F := Ideal) x
  | ⟨1, _⟩ => val_main_v45 (F := Ideal) x
  | ⟨2, _⟩ => val_main_v46 (F := Ideal) x
  | ⟨3, _⟩ => val_main_v47 (F := Ideal) x
  | ⟨4, _⟩ => val_main_v48 (F := Ideal) x
  | ⟨5, _⟩ => val_main_v49 (F := Ideal) x
  | ⟨6, _⟩ => val_main_v50 (F := Ideal) x
  | ⟨7, _⟩ => val_main_v51 (F := Ideal) x
  | ⟨8, _⟩ => val_main_v52 (F := Ideal) x
  | ⟨9, _⟩ => val_main_v53 (F := Ideal) x
  | ⟨10, _⟩ => val_main_v54 (F := Ideal) x

/-- Window `n` of the first 16 is neighbour `n`. -/
theorem windows16_read (x : FVec Ideal S2x16x48x48x48 .f32) (n : Fin 16) (b : Fin 2) (c : Fin 16) (u : Fin 1)
    (h w d : Fin 48) : windows16 x n (ix6 b c u h w d) = patch x b.val c.val n.val h.val w.val d.val :=
  match n with
  | ⟨0, _⟩ => window0 x b c u h w d
  | ⟨1, _⟩ => window1 x b c u h w d
  | ⟨2, _⟩ => window2 x b c u h w d
  | ⟨3, _⟩ => window3 x b c u h w d
  | ⟨4, _⟩ => window4 x b c u h w d
  | ⟨5, _⟩ => window5 x b c u h w d
  | ⟨6, _⟩ => window6 x b c u h w d
  | ⟨7, _⟩ => window7 x b c u h w d
  | ⟨8, _⟩ => window8 x b c u h w d
  | ⟨9, _⟩ => window9 x b c u h w d
  | ⟨10, _⟩ => window10 x b c u h w d
  | ⟨11, _⟩ => window11 x b c u h w d
  | ⟨12, _⟩ => window12 x b c u h w d
  | ⟨13, _⟩ => window13 x b c u h w d
  | ⟨14, _⟩ => window14 x b c u h w d
  | ⟨15, _⟩ => window15 x b c u h w d
  | ⟨_ + 16, hn⟩ => absurd hn (Nat.not_lt.2 (Nat.le_add_left _ _))

/-- Window `n` of the last 11 is neighbour `16 + n`. -/
theorem windows11_read (x : FVec Ideal S2x16x48x48x48 .f32) (n : Fin 11) (b : Fin 2) (c : Fin 16) (u : Fin 1)
    (h w d : Fin 48) : windows11 x n (ix6 b c u h w d) = patch x b.val c.val (16 + n.val) h.val w.val d.val :=
  match n with
  | ⟨0, _⟩ => window16 x b c u h w d
  | ⟨1, _⟩ => window17 x b c u h w d
  | ⟨2, _⟩ => window18 x b c u h w d
  | ⟨3, _⟩ => window19 x b c u h w d
  | ⟨4, _⟩ => window20 x b c u h w d
  | ⟨5, _⟩ => window21 x b c u h w d
  | ⟨6, _⟩ => window22 x b c u h w d
  | ⟨7, _⟩ => window23 x b c u h w d
  | ⟨8, _⟩ => window24 x b c u h w d
  | ⟨9, _⟩ => window25 x b c u h w d
  | ⟨10, _⟩ => window26 x b c u h w d

/-- The first 16 windows stacked: at stack position `k`, neighbour `k`. -/
theorem stack16_read (x : FVec Ideal S2x16x48x48x48 .f32) (j : S2x16x16x48x48x48.Idx) :
    val_main_v55 (F := Ideal) x j = patch x (j 0).val (j 1).val (j 2).val (j 3).val (j 4).val (j 5).val := by
  unfold val_main_v55
  exact (stack_read (windows16 x) _ j).trans (windows16_read x _ _ _ _ _ _ _)

/-- The last 11 windows stacked: at stack position `k`, neighbour `16 + k`. -/
theorem stack11_read (x : FVec Ideal S2x16x48x48x48 .f32) (j : S2x16x11x48x48x48.Idx) :
    val_main_v56 (F := Ideal) x j = patch x (j 0).val (j 1).val (16 + (j 2).val) (j 3).val (j 4).val (j 5).val := by
  unfold val_main_v56
  exact (stack_read (windows11 x) _ j).trans (windows11_read x _ _ _ _ _ _ _)

/-- The two stacks joined: at stack position `k` of 27, neighbour `k`. -/
theorem stack27_read (x : FVec Ideal S2x16x48x48x48 .f32) (j : S2x16x27x48x48x48.Idx) :
    val_main_v57 (F := Ideal) x j = patch x (j 0).val (j 1).val (j 2).val (j 3).val (j 4).val (j 5).val := by
  have h2 : (j 2).val < 27 := (j 2).isLt
  unfold val_main_v57
  by_cases hlt : (j 2).val < 16
  · refine (concatenate_pair_apply_left (t := S2x16x27x48x48x48) (s₁ := S2x16x16x48x48x48) (s₂ := S2x16x11x48x48x48)
      (2 : Fin 6) _ _ _ j rfl
      (ix6 (⟨(j 0).val, (j 0).isLt⟩ : Fin 2) (⟨(j 1).val, (j 1).isLt⟩ : Fin 16) (⟨(j 2).val, hlt⟩ : Fin 16)
        (⟨(j 3).val, (j 3).isLt⟩ : Fin 48) (⟨(j 4).val, (j 4).isLt⟩ : Fin 48) (⟨(j 5).val, (j 5).isLt⟩ : Fin 48))
      (fun b => match b with
        | ⟨0, _⟩ => rfl
        | ⟨1, _⟩ => rfl
        | ⟨2, _⟩ => rfl
        | ⟨3, _⟩ => rfl
        | ⟨4, _⟩ => rfl
        | ⟨5, _⟩ => rfl)).trans ?_
    exact (stack16_read x _).trans rfl
  · refine (concatenate_pair_apply_right (t := S2x16x27x48x48x48) (s₁ := S2x16x16x48x48x48) (s₂ := S2x16x11x48x48x48)
      (2 : Fin 6) _ _ _ j rfl rfl
      (ix6 (⟨(j 0).val, (j 0).isLt⟩ : Fin 2) (⟨(j 1).val, (j 1).isLt⟩ : Fin 16) (⟨(j 2).val - 16, by omega⟩ : Fin 11)
        (⟨(j 3).val, (j 3).isLt⟩ : Fin 48) (⟨(j 4).val, (j 4).isLt⟩ : Fin 48) (⟨(j 5).val, (j 5).isLt⟩ : Fin 48))
      (fun b => match b with
        | ⟨0, _⟩ => fun _ => rfl
        | ⟨1, _⟩ => fun _ => rfl
        | ⟨2, _⟩ => fun hne => absurd rfl hne
        | ⟨3, _⟩ => fun _ => rfl
        | ⟨4, _⟩ => fun _ => rfl
        | ⟨5, _⟩ => fun _ => rfl)
      (by show (j 2).val - 16 + 16 = (j 2).val; omega)).trans ?_
    exact (stack11_read x _).trans (patch_congr x _ _ _ _ _ (by show 16 + ((j 2).val - 16) = (j 2).val; omega))

/-! ## The axes merged -/

/-- The reference's result, as a function of its argument, is the unfold. -/
theorem ref_eq (x : FVec Ideal S2x16x48x48x48 .f32) :
    Cert.ReferenceIdeal.ReadP.val_main_v58 (F := Ideal) x = G x := by
  funext o
  have h0 : (o 0).val < 2 := (o 0).isLt
  have h1 : (o 1).val < 432 := (o 1).isLt
  have h2 : (o 2).val < 110592 := (o 2).isLt
  unfold val_main_v58
  -- the entry with the same row-major position: channel and neighbour from the middle axis, the voxel from the last
  refine (shapeCast_apply _ _ o
    (ix6 (⟨(o 0).val, h0⟩ : Fin 2) (⟨(o 1).val / 27, by omega⟩ : Fin 16) (⟨(o 1).val % 27, by omega⟩ : Fin 27)
      (⟨(o 2).val / 2304, by omega⟩ : Fin 48) (⟨(o 2).val / 48 % 48, by omega⟩ : Fin 48)
      (⟨(o 2).val % 48, by omega⟩ : Fin 48)) ?_).trans ?_
  · rw [Shape.rowMajor_val_six, Shape.rowMajor_val_three]
    show (((((o 0).val * 16 + (o 1).val / 27) * 27 + (o 1).val % 27) * 48 + (o 2).val / 2304) * 48
        + (o 2).val / 48 % 48) * 48 + (o 2).val % 48 = ((o 0).val * 432 + (o 1).val) * 110592 + (o 2).val
    omega
  · exact (stack27_read x _).trans rfl

end Cert.RefSide

end
-- ==== Proof.Pieces.lean ====
/-
  The 27 stores of the kernel body, each brought to one form.

  Every store writes, into slot k = 9·i + 3·j + l of the output block, the product of two [48, 2304] arrays: the rows
  i … i + 47 of the 50-row input slab, rotated along the 2304 lanes by (49 − 48·j − l) mod 2304, and a 0/1 mask of the
  lane n that holds exactly when both lane coordinates n / 48 + (j − 1) and n % 48 + (l − 1) lie in [0, 48). The
  body computes the two lane-coordinate vectors once, from an iota, and shares them among the stores; here each
  store's payload is shown to be the same term `pieceTerm` at its own three constants, by unfolding definitions only.
-/
import proofs.«150925_j2757369004156_1_alg».proof.Proof.Gen.KernelIdeal.Frame

noncomputable section

namespace Cert.KernelIdeal.Pieces

open Cert.KernelIdeal Cert.KernelIdeal.Gen Idealize.ShloMosaic Idealize.ShloMosaic.TcCoe

variable {F : FTy → Type} [FloatOps F]

/-- The lanes on which a coordinate vector `v`, moved by the word `cst`, stays inside [0, 48). -/
def inRange (v : IVec S1x2304 32) (cst : BitVec 32) : IVec S1x2304 1 :=
  andi (cmpi .sge (addi v (broadcast S1x2304 cst)) (broadcast S1x2304 0#32))
    (cmpi .slt (addi v (broadcast S1x2304 cst)) (broadcast S1x2304 48#32))

/-- Rows `off 0` … `off 0 + 47` of the input block read as a [50, 2304] slab. -/
def slab (off : Fin 2 → Nat) (h : S50x2304.Slices off S48x2304) (x0 : Vec F S1x1x50x2304 .f32) : FVec F S48x2304 .f32 :=
  extractStridedSlice S48x2304 off (shapeCast S50x2304 (View.ld x0 r0_0) shapeCasts_S1x1x50x2304_S50x2304) h

/-- One store's payload: the slab rotated by `s` lanes, times the 0/1 mask of the lanes whose two coordinates, moved
    by `cj` and `cl`, stay in range. -/
def pieceTerm (s cj cl : BitVec 32) (xh : FVec F S48x2304 .f32) : FVec F S1x1x1x48x2304 .f32 :=
  shapeCast S1x1x1x48x2304
    (mulf (dynamicRotate 1 s none xh rotates_S48x2304_d1)
      (broadcastTo S48x2304
        (sitofp .f32 (extui 32 (andi (inRange k0_pay3 cj) (inRange k0_pay4 cl)) natLt_1_32))
        broadcasts_S1x2304_S48x2304))
    shapeCasts_S48x2304_S1x1x1x48x2304

theorem piece0 (x0 : Vec F S1x1x50x2304 .f32) :
    k0_pay8 k0_pay4 (k0_pay5 (View.ld x0 r0_0)) k0_pay6 k0_pay7 = pieceTerm 49#32 4294967295#32 4294967295#32 (slab ![0, 0] slices_S50x2304_o0_0_S48x2304 x0) := rfl

theorem piece1 (x0 : Vec F S1x1x50x2304 .f32) :
    k0_pay9 k0_pay4 (k0_pay5 (View.ld x0 r0_0)) k0_pay6 = pieceTerm 48#32 4294967295#32 0#32 (slab ![0, 0] slices_S50x2304_o0_0_S48x2304 x0) := rfl

theorem piece2 (x0 : Vec F S1x1x50x2304 .f32) :
    k0_pay11 k0_pay4 (k0_pay5 (View.ld x0 r0_0)) k0_pay6 (k0_pay10 k0_pay4) 0#32 = pieceTerm 47#32 4294967295#32 1#32 (slab ![0, 0] slices_S50x2304_o0_0_S48x2304 x0) := rfl

theorem piece3 (x0 : Vec F S1x1x50x2304 .f32) :
    k0_pay14 (k0_pay13 k0_pay3 k0_pay4 (k0_pay5 (View.ld x0 r0_0))) = pieceTerm 1#32 0#32 4294967295#32 (slab ![0, 0] slices_S50x2304_o0_0_S48x2304 x0) := rfl

theorem piece4 (x0 : Vec F S1x1x50x2304 .f32) :
    k0_pay15 k0_pay4 (k0_pay5 (View.ld x0 r0_0)) (k0_pay12 k0_pay3) = pieceTerm 0#32 0#32 0#32 (slab ![0, 0] slices_S50x2304_o0_0_S48x2304 x0) := rfl

theorem piece5 (x0 : Vec F S1x1x50x2304 .f32) :
    k0_pay17 (k0_pay16 k0_pay4 (k0_pay5 (View.ld x0 r0_0)) (k0_pay12 k0_pay3)) = pieceTerm 2303#32 0#32 1#32 (slab ![0, 0] slices_S50x2304_o0_0_S48x2304 x0) := rfl

theorem piece6 (x0 : Vec F S1x1x50x2304 .f32) :
    k0_pay19 k0_pay3 k0_pay4 (k0_pay5 (View.ld x0 r0_0)) = pieceTerm 2257#32 1#32 4294967295#32 (slab ![0, 0] slices_S50x2304_o0_0_S48x2304 x0) := rfl

theorem piece7 (x0 : Vec F S1x1x50x2304 .f32) :
    k0_pay21 (k0_pay5 (View.ld x0 r0_0)) (k0_pay18 k0_pay3) (k0_pay20 k0_pay4) = pieceTerm 2256#32 1#32 0#32 (slab ![0, 0] slices_S50x2304_o0_0_S48x2304 x0) := rfl

theorem piece8 (x0 : Vec F S1x1x50x2304 .f32) :
    k0_pay22 k0_pay4 (k0_pay5 (View.ld x0 r0_0)) (k0_pay18 k0_pay3) = pieceTerm 2255#32 1#32 1#32 (slab ![0, 0] slices_S50x2304_o0_0_S48x2304 x0) := rfl

theorem piece9 (x0 : Vec F S1x1x50x2304 .f32) :
    k0_pay25 k0_pay4 (k0_pay23 (k0_pay2 (View.ld x0 r0_0))) (k0_pay24 k0_pay3) 4294967295#32 = pieceTerm 49#32 4294967295#32 4294967295#32 (slab ![1, 0] slices_S50x2304_o1_0_S48x2304 x0) := rfl

theorem piece10 (x0 : Vec F S1x1x50x2304 .f32) :
    k0_pay26 k0_pay4 (k0_pay23 (k0_pay2 (View.ld x0 r0_0))) (k0_pay24 k0_pay3) = pieceTerm 48#32 4294967295#32 0#32 (slab ![1, 0] slices_S50x2304_o1_0_S48x2304 x0) := rfl

theorem piece11 (x0 : Vec F S1x1x50x2304 .f32) :
    k0_pay28 k0_pay4 (k0_pay23 (k0_pay2 (View.ld x0 r0_0))) (k0_pay24 k0_pay3) (k0_pay27 k0_pay4) = pieceTerm 47#32 4294967295#32 1#32 (slab ![1, 0] slices_S50x2304_o1_0_S48x2304 x0) := rfl

theorem piece12 (x0 : Vec F S1x1x50x2304 .f32) :
    k0_pay31 (k0_pay30 k0_pay3 k0_pay4 (k0_pay23 (k0_pay2 (View.ld x0 r0_0)))) = pieceTerm 1#32 0#32 4294967295#32 (slab ![1, 0] slices_S50x2304_o1_0_S48x2304 x0) := rfl

theorem piece13 (x0 : Vec F S1x1x50x2304 .f32) :
    k0_pay32 k0_pay4 (k0_pay23 (k0_pay2 (View.ld x0 r0_0))) (k0_pay29 k0_pay3) = pieceTerm 0#32 0#32 0#32 (slab ![1, 0] slices_S50x2304_o1_0_S48x2304 x0) := rfl

theorem piece14 (x0 : Vec F S1x1x50x2304 .f32) :
    k0_pay34 (k0_pay33 k0_pay4 (k0_pay23 (k0_pay2 (View.ld x0 r0_0))) (k0_pay29 k0_pay3)) = pieceTerm 2303#32 0#32 1#32 (slab ![1, 0] slices_S50x2304_o1_0_S48x2304 x0) := rfl

theorem piece15 (x0 : Vec F S1x1x50x2304 .f32) :
    k0_pay36 k0_pay3 k0_pay4 (k0_pay23 (k0_pay2 (View.ld x0 r0_0))) = pieceTerm 2257#32 1#32 4294967295#32 (slab ![1, 0] slices_S50x2304_o1_0_S48x2304 x0) := rfl

theorem piece16 (x0 : Vec F S1x1x50x2304 .f32) :
    k0_pay39 (k0_pay23 (k0_pay2 (View.ld x0 r0_0))) (k0_pay35 k0_pay3) (k0_pay37 k0_pay4) (k0_pay38 k0_pay4) = pieceTerm 2256#32 1#32 0#32 (slab ![1, 0] slices_S50x2304_o1_0_S48x2304 x0) := rfl

theorem piece17 (x0 : Vec F S1x1x50x2304 .f32) :
    k0_pay40 k0_pay4 (k0_pay23 (k0_pay2 (View.ld x0 r0_0))) (k0_pay35 k0_pay3) = pieceTerm 2255#32 1#32 1#32 (slab ![1, 0] slices_S50x2304_o1_0_S48x2304 x0) := rfl

theorem piece18 (x0 : Vec F S1x1x50x2304 .f32) :
    k0_pay43 k0_pay4 (k0_pay41 (k0_pay2 (View.ld x0 r0_0))) (k0_pay42 k0_pay3) = pieceTerm 49#32 4294967295#32 4294967295#32 (slab ![2, 0] slices_S50x2304_o2_0_S48x2304 x0) := rfl

theorem piece19 (x0 : Vec F S1x1x50x2304 .f32) :
    k0_pay44 k0_pay4 (k0_pay41 (k0_pay2 (View.ld x0 r0_0))) (k0_pay42 k0_pay3) = pieceTerm 48#32 4294967295#32 0#32 (slab ![2, 0] slices_S50x2304_o2_0_S48x2304 x0) := rfl

theorem piece20 (x0 : Vec F S1x1x50x2304 .f32) :
    k0_pay46 k0_pay4 (k0_pay41 (k0_pay2 (View.ld x0 r0_0))) (k0_pay42 k0_pay3) k0_pay45 = pieceTerm 47#32 4294967295#32 1#32 (slab ![2, 0] slices_S50x2304_o2_0_S48x2304 x0) := rfl

theorem piece21 (x0 : Vec F S1x1x50x2304 .f32) :
    k0_pay49 (k0_pay48 k0_pay3 k0_pay4 (k0_pay41 (k0_pay2 (View.ld x0 r0_0)))) = pieceTerm 1#32 0#32 4294967295#32 (slab ![2, 0] slices_S50x2304_o2_0_S48x2304 x0) := rfl

theorem piece22 (x0 : Vec F S1x1x50x2304 .f32) :
    k0_pay50 k0_pay4 (k0_pay41 (k0_pay2 (View.ld x0 r0_0))) (k0_pay47 k0_pay3) = pieceTerm 0#32 0#32 0#32 (slab ![2, 0] slices_S50x2304_o2_0_S48x2304 x0) := rfl

theorem piece23 (x0 : Vec F S1x1x50x2304 .f32) :
    k0_pay52 (k0_pay51 k0_pay4 (k0_pay41 (k0_pay2 (View.ld x0 r0_0))) (k0_pay47 k0_pay3)) = pieceTerm 2303#32 0#32 1#32 (slab ![2, 0] slices_S50x2304_o2_0_S48x2304 x0) := rfl

theorem piece24 (x0 : Vec F S1x1x50x2304 .f32) :
    k0_pay54 k0_pay3 k0_pay4 (k0_pay41 (k0_pay2 (View.ld x0 r0_0))) = pieceTerm 2257#32 1#32 4294967295#32 (slab ![2, 0] slices_S50x2304_o2_0_S48x2304 x0) := rfl

theorem piece25 (x0 : Vec F S1x1x50x2304 .f32) :
    k0_pay58 (k0_pay41 (k0_pay2 (View.ld x0 r0_0))) (k0_pay53 k0_pay3) (k0_pay55 k0_pay4) (k0_pay56 k0_pay4) k0_pay57 = pieceTerm 2256#32 1#32 0#32 (slab ![2, 0] slices_S50x2304_o2_0_S48x2304 x0) := rfl

theorem piece26 (x0 : Vec F S1x1x50x2304 .f32) :
    k0_pay1 (k0_pay59 k0_pay4 (k0_pay41 (k0_pay2 (View.ld x0 r0_0))) (k0_pay53 k0_pay3)) = pieceTerm 2255#32 1#32 1#32 (slab ![2, 0] slices_S50x2304_o2_0_S48x2304 x0) := rfl

end Cert.KernelIdeal.Pieces

end
-- ==== Proof.PieceAt.lean ====
/-
  One store's payload read at an index.

  At lane n = 48·w + d of row h, the payload of the store with constants (j, l) is the slab's entry at row h and lane
  n + 48·(j − 1) + (l − 1) when the moved coordinates w + j − 1 and d + l − 1 both stay in [0, 48), and 0 otherwise:
  the rotation by (49 − 48·j − l) mod 2304 reads lane (n − 49 + 48·j + l) mod 2304, the mask is 1 exactly on the
  lanes in range and 0 elsewhere, and on the extended reals a product with 1 is the factor and a product with 0 is 0.
-/
import proofs.«150925_j2757369004156_1_alg».proof.Proof.Pieces
import Idealize.ShloMosaic.Lib.ValueIdx
import Idealize.ShloMosaic.Lib.Pipeline.Value
import Idealize.ShloMosaic.Lib.KernelVsHost

noncomputable section

namespace Cert.KernelIdeal.Pieces

open Cert.KernelIdeal Cert.KernelIdeal.Gen Idealize.ShloMosaic Idealize.ShloMosaic.TcCoe Idealize.ShloMosaic.ValueIdx

/-! ## Words: the two lane coordinates and the in-range bit, on one 32-bit word -/

/-- The floor division by 48 on one word, as the body spells it: the quotient rounded toward zero, less one where the
    signs of dividend and divisor differ and the remainder is nonzero. -/
def floorDiv48 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 48#32 0#32)) (Scalar.extui (Scalar.cmpi .slt 48#32 0#32))))
      (IntOp.cmpi .ne (IntOp.remsi .vector x 48#32) 0#32))
    (IntOp.subi (IntOp.divsi .vector x 48#32) 1#32)
    (IntOp.divsi .vector x 48#32)

/-- On the word of a lane number n < 2304 it is the word of n / 48: a finite check, lane by lane. -/
theorem floorDiv48_ofNat : ∀ n : Fin 2304, floorDiv48 (BitVec.ofNat 32 n.val) = BitVec.ofNat 32 (n.val / 48) := by
  decide +kernel

/-- n − 48·(n / 48) on words is the word of n % 48, for a lane number n < 2304: a finite check, lane by lane. -/
theorem rem48_ofNat : ∀ n : Fin 2304,
    IntOp.subi (BitVec.ofNat 32 n.val) (IntOp.muli (BitVec.ofNat 32 (n.val / 48)) 48#32) = BitVec.ofNat 32 (n.val % 48) := by
  decide +kernel

/-- The in-range bit of a coordinate a < 48 moved by t − 1, t < 3: it holds exactly when 0 ≤ a + t − 1 < 48. -/
theorem inRange_bit : ∀ (a : Fin 48) (t : Fin 3),
    IntOp.andi (IntOp.cmpi .sge (IntOp.addi (BitVec.ofNat 32 a.val) (BitVec.ofNat 32 t.val - 1#32)) 0#32)
      (IntOp.cmpi .slt (IntOp.addi (BitVec.ofNat 32 a.val) (BitVec.ofNat 32 t.val - 1#32)) 48#32)
      = if 1 ≤ a.val + t.val ∧ a.val + t.val ≤ 48 then 1#1 else 0#1 := by
  decide +kernel

/-- The conjunction of two bits, widened to a word and read signed, is 1 when both hold and 0 otherwise. -/
theorem maskVal : ∀ b c : BitVec 1,
    ((IntOp.andi b c).setWidth 32).toInt = if b = 1#1 ∧ c = 1#1 then 1 else 0 := by
  decide

/-! ## The lane vectors at a lane -/

/-- The iota along the lanes holds the lane number. -/
theorem iota_lane (n : Fin 2304) :
    iota .tc S1x2304 32 [1] iota_S1x2304_d1_w32 (ix2 (0 : Fin 1) n) = BitVec.ofNat 32 n.val :=
  iota_single_apply .tc S1x2304 32 1 iota_S1x2304_d1_w32 (ix2 (0 : Fin 1) n)

/-- The first lane coordinate: n / 48. -/
theorem k0_pay3_apply (n : Fin 2304) : k0_pay3 (ix2 (0 : Fin 1) n) = BitVec.ofNat 32 (n.val / 48) := by
  show floorDiv48 (iota .tc S1x2304 32 [1] iota_S1x2304_d1_w32 (ix2 (0 : Fin 1) n)) = _
  rw [iota_lane]
  exact floorDiv48_ofNat n

/-- The second lane coordinate: n % 48. -/
theorem k0_pay4_apply (n : Fin 2304) : k0_pay4 (ix2 (0 : Fin 1) n) = BitVec.ofNat 32 (n.val % 48) := by
  show IntOp.subi (iota .tc S1x2304 32 [1] iota_S1x2304_d1_w32 (ix2 (0 : Fin 1) n))
    (IntOp.muli (k0_pay3 (ix2 (0 : Fin 1) n)) 48#32) = _
  rw [iota_lane, k0_pay3_apply]
  exact rem48_ofNat n

/-- The in-range mask at a lane whose coordinate is a < 48, moved by t − 1 with t < 3. -/
theorem inRange_at (v : IVec S1x2304 32) (cst : BitVec 32) (y : S1x2304.Idx) (a t : Nat) (ha : a < 48) (ht : t < 3)
    (hv : v y = BitVec.ofNat 32 a) (hc : cst = BitVec.ofNat 32 t - 1#32) :
    inRange v cst y = if 1 ≤ a + t ∧ a + t ≤ 48 then 1#1 else 0#1 := by
  show IntOp.andi (IntOp.cmpi .sge (IntOp.addi (v y) cst) 0#32) (IntOp.cmpi .slt (IntOp.addi (v y) cst) 48#32) = _
  rw [hv, hc]
  exact inRange_bit ⟨a, ha⟩ ⟨t, ht⟩

/-! ## The payload at an index -/

/-- The payload of the store with constants (j, l), at row h and lane n. -/
theorem pieceTerm_apply (s cj cl : BitVec 32) (j l : Nat) (hj : j < 3) (hl : l < 3)
    (hs : s.toNat = (2353 - 48 * j - l) % 2304)
    (hcj : cj = BitVec.ofNat 32 j - 1#32) (hcl : cl = BitVec.ofNat 32 l - 1#32)
    (xh : FVec Ideal S48x2304 .f32) (h : Fin 48) (n : Fin 2304) :
    pieceTerm (F := Ideal) s cj cl xh (ix5 (0 : Fin 1) (0 : Fin 1) (0 : Fin 1) h n) =
      if 1 ≤ n.val / 48 + j ∧ n.val / 48 + j ≤ 48 ∧ 1 ≤ n.val % 48 + l ∧ n.val % 48 + l ≤ 48
      then xh (ix2 h (⟨(n.val + 48 * j + l + 2255) % 2304, Nat.mod_lt _ (by decide)⟩ : Fin 2304)) else 0 := by
  have hn := n.isLt
  have hw : n.val / 48 < 48 := by omega
  have hd : n.val % 48 < 48 := Nat.mod_lt _ (by decide)
  -- the two in-range bits at lane n
  have hb3 := inRange_at k0_pay3 cj (ix2 (0 : Fin 1) n) (n.val / 48) j hw hj (k0_pay3_apply n) hcj
  have hb4 := inRange_at k0_pay4 cl (ix2 (0 : Fin 1) n) (n.val % 48) l hd hl (k0_pay4_apply n) hcl
  -- the cast to [1,1,1,48,2304] reads (h, n)
  refine (shapeCast_apply _ shapeCasts_S48x2304_S1x1x1x48x2304 (ix5 (0 : Fin 1) (0 : Fin 1) (0 : Fin 1) h n) (ix2 h n) ?_).trans ?_
  · rw [Shape.rowMajor_val_two, Shape.rowMajor_val_five]
    show h.val * 2304 + n.val = ((((0 * 1 + 0) * 1 + 0) * 48 + h.val) * 2304 + n.val)
    omega
  -- the rotated slab at (h, n)
  have rot : dynamicRotate 1 s none xh rotates_S48x2304_d1 (ix2 h n)
      = xh (ix2 h (⟨(n.val + 48 * j + l + 2255) % 2304, Nat.mod_lt _ (by decide)⟩ : Fin 2304)) :=
    dynamicRotate_apply (1 : Fin 2) s xh rotates_S48x2304_d1 (ix2 h n) _ (by
      intro b
      match b with
      | ⟨0, _⟩ => rfl
      | ⟨1, _⟩ =>
        show (n.val + 48 * j + l + 2255) % 2304 = (n.val + 2304 - s.toNat % 2304) % 2304
        rw [hs]
        omega)
  -- the mask at (h, n)
  have msk : broadcastTo S48x2304
        (sitofp (F := Ideal) .f32 (extui 32 (andi (inRange k0_pay3 cj) (inRange k0_pay4 cl)) natLt_1_32))
        broadcasts_S1x2304_S48x2304 (ix2 h n)
      = if (1 ≤ n.val / 48 + j ∧ n.val / 48 + j ≤ 48) ∧ (1 ≤ n.val % 48 + l ∧ n.val % 48 + l ≤ 48) then 1 else 0 := by
    refine (broadcastTo_apply _ broadcasts_S1x2304_S48x2304 (ix2 h n) (ix2 (0 : Fin 1) n) (fun a => ?_)).trans ?_
    · match a with
      | ⟨0, _⟩ => rfl
      | ⟨1, _⟩ => rfl
    show ((((IntOp.andi (inRange k0_pay3 cj (ix2 (0 : Fin 1) n)) (inRange k0_pay4 cl (ix2 (0 : Fin 1) n))).setWidth 32).toInt : ℝ) : EReal) = _
    rw [maskVal, hb3, hb4]
    by_cases c1 : 1 ≤ n.val / 48 + j ∧ n.val / 48 + j ≤ 48 <;> by_cases c2 : 1 ≤ n.val % 48 + l ∧ n.val % 48 + l ≤ 48 <;>
      simp [c1, c2]
  show dynamicRotate 1 s none xh rotates_S48x2304_d1 (ix2 h n) *
      broadcastTo S48x2304
        (sitofp (F := Ideal) .f32 (extui 32 (andi (inRange k0_pay3 cj) (inRange k0_pay4 cl)) natLt_1_32))
        broadcasts_S1x2304_S48x2304 (ix2 h n) = _
  rw [rot, msk]
  by_cases c1 : 1 ≤ n.val / 48 + j ∧ n.val / 48 + j ≤ 48 <;> by_cases c2 : 1 ≤ n.val % 48 + l ∧ n.val % 48 + l ≤ 48
  · rw [if_pos ⟨c1, c2⟩, if_pos ⟨c1.1, c1.2, c2.1, c2.2⟩, mul_one]
  · rw [if_neg (fun hh => c2 hh.2), if_neg (fun hh => c2 ⟨hh.2.2.1, hh.2.2.2⟩), mul_zero]
  · rw [if_neg (fun hh => c1 hh.1), if_neg (fun hh => c1 ⟨hh.1, hh.2.1⟩), mul_zero]
  · rw [if_neg (fun hh => c1 hh.1), if_neg (fun hh => c1 ⟨hh.1, hh.2.1⟩), mul_zero]

end Cert.KernelIdeal.Pieces

end
-- ==== Proof.Block.lean ====
/-
  What the body leaves in the output block, as one function of the input block.

  The input block is a [1, 1, 50, 2304] slab: 50 rows (the 48 rows of one channel with a zero row above and below),
  each of 2304 = 48·48 lanes, lane n = 48·w + d. The output block is [1, 1, 27, 48, 2304]. Slot k = 9·i + 3·j + l,
  row h, lane n holds the slab's row h + i at lane n + 48·(j − 1) + (l − 1) when w + j − 1 and d + l − 1 both stay in
  [0, 48), and 0 otherwise. Each of the 27 stores writes one slot whole, so the 27 pieces agree with this one function
  and tile the block.
-/
import proofs.«150925_j2757369004156_1_alg».proof.Proof.Pieces
import proofs.«150925_j2757369004156_1_alg».proof.Proof.PieceAt
import Idealize.ShloMosaic.Lib.ValueIdx
import Idealize.ShloMosaic.Lib.Pipeline.Value

set_option maxRecDepth 16384

noncomputable section

namespace Cert.KernelIdeal.Block

open Cert.KernelIdeal Cert.KernelIdeal.Gen Cert.KernelIdeal.Pieces
open Idealize.ShloMosaic Idealize.ShloMosaic.TcCoe Idealize.ShloMosaic.ValueIdx

/-- The block function: slot (y 2), row (y 3), lane (y 4) of the output block from the input block. -/
def blockFn (x0 : Vec Ideal S1x1x50x2304 .f32) : Vec Ideal S1x1x27x48x2304 .f32 := fun y =>
  if 1 ≤ (y 4).val / 48 + (y 2).val / 3 % 3 ∧ (y 4).val / 48 + (y 2).val / 3 % 3 ≤ 48
      ∧ 1 ≤ (y 4).val % 48 + (y 2).val % 3 ∧ (y 4).val % 48 + (y 2).val % 3 ≤ 48
  then x0 (ix4 (0 : Fin 1) (0 : Fin 1) (⟨((y 3).val + (y 2).val / 9) % 50, Nat.mod_lt _ (by decide)⟩ : Fin 50)
      (⟨((y 4).val + 48 * ((y 2).val / 3 % 3) + (y 2).val % 3 + 2255) % 2304, Nat.mod_lt _ (by decide)⟩ : Fin 2304))
  else 0

theorem zero4 : (![0, 0, 0, 0] : Fin 4 → Nat) = fun _ => 0 := by
  funext a; fin_cases a <;> rfl

/-- A slab at row h and lane n is the input block at row h + i. -/
theorem slab_apply (i : Nat) (hi : i < 3) (hs : S50x2304.Slices ![i, 0] S48x2304) (x0 : Vec Ideal S1x1x50x2304 .f32)
    (h : Fin 48) (n : Fin 2304) :
    slab ![i, 0] hs x0 (ix2 h n)
      = x0 (ix4 (0 : Fin 1) (0 : Fin 1) (⟨h.val + i, by have := h.isLt; omega⟩ : Fin 50) n) := by
  have hh := h.isLt
  have hn := n.isLt
  unfold slab
  refine (extractStridedSlice_apply ![i, 0] _ hs (ix2 h n) (ix2 (⟨h.val + i, by omega⟩ : Fin 50) n) (fun a => match a with
    | ⟨0, _⟩ => by show h.val + i = i + h.val; omega
    | ⟨1, _⟩ => by show n.val = 0 + n.val; omega)).trans ?_
  refine (shapeCast_apply _ shapeCasts_S1x1x50x2304_S50x2304 (ix2 (⟨h.val + i, by omega⟩ : Fin 50) n)
    (ix4 (0 : Fin 1) (0 : Fin 1) (⟨h.val + i, by omega⟩ : Fin 50) n) (by
      rw [Shape.rowMajor_val_two, Shape.rowMajor_val_four]
      show ((0 * 1 + 0) * 50 + (h.val + i)) * 2304 + n.val = (h.val + i) * 2304 + n.val
      omega)).trans ?_
  rw [View.ld_unit_zero (S := S1x1x50x2304) zero4]

/-- The store of slot k, read at a local index of its rectangle, is the block function at that index of the block. -/
theorem piece_at (k : Nat) (hk : k < 27) (s cj cl : BitVec 32)
    (hs : s.toNat = (2353 - 48 * (k / 3 % 3) - k % 3) % 2304)
    (hcj : cj = BitVec.ofNat 32 (k / 3 % 3) - 1#32) (hcl : cl = BitVec.ofNat 32 (k % 3) - 1#32)
    (hsl : S50x2304.Slices ![k / 9, 0] S48x2304) (x0 : Vec Ideal S1x1x50x2304 .f32)
    (inb : ∀ a, (![0, 0, k, 0, 0] : Fin 5 → Nat) a + S1x1x1x48x2304.size a ≤ S1x1x27x48x2304.size a)
    (x : (Rect.unit (s := S1x1x27x48x2304) ![0, 0, k, 0, 0] S1x1x1x48x2304.size inb).shape.Idx) :
    pieceTerm (F := Ideal) s cj cl (slab ![k / 9, 0] hsl x0) x
      = blockFn x0 ((Rect.unit (s := S1x1x27x48x2304) ![0, 0, k, 0, 0] S1x1x1x48x2304.size inb).emb x) := by
  obtain ⟨a0, a1, a2, h, n, rfl⟩ : ∃ (a0 : Fin 1) (a1 : Fin 1) (a2 : Fin 1) (h : Fin 48) (n : Fin 2304), x = ix5 a0 a1 a2 h n :=
    ⟨x 0, x 1, x 2, x 3, x 4, eq_ix5 x⟩
  obtain rfl : a0 = 0 := Subsingleton.elim _ _
  obtain rfl : a1 = 0 := Subsingleton.elim _ _
  obtain rfl : a2 = 0 := Subsingleton.elim _ _
  have hh := h.isLt
  have hn := n.isLt
  have hj : k / 3 % 3 < 3 := Nat.mod_lt _ (by decide)
  have hl : k % 3 < 3 := Nat.mod_lt _ (by decide)
  have hi : k / 9 < 3 := by omega
  rw [pieceTerm_apply s cj cl (k / 3 % 3) (k % 3) hj hl hs hcj hcl _ h n, slab_apply (k / 9) hi hsl x0 h]
  unfold blockFn
  have e2 : (((Rect.unit (s := S1x1x27x48x2304) ![0, 0, k, 0, 0] S1x1x1x48x2304.size inb).emb
      (ix5 (0 : Fin 1) (0 : Fin 1) (0 : Fin 1) h n)) 2).val = k := by
    show k + 1 * 0 = k; omega
  have e3 : (((Rect.unit (s := S1x1x27x48x2304) ![0, 0, k, 0, 0] S1x1x1x48x2304.size inb).emb
      (ix5 (0 : Fin 1) (0 : Fin 1) (0 : Fin 1) h n)) 3).val = h.val := by
    show 0 + 1 * h.val = h.val; omega
  have e4 : (((Rect.unit (s := S1x1x27x48x2304) ![0, 0, k, 0, 0] S1x1x1x48x2304.size inb).emb
      (ix5 (0 : Fin 1) (0 : Fin 1) (0 : Fin 1) h n)) 4).val = n.val := by
    show 0 + 1 * n.val = n.val; omega
  simp only [e2, e3, e4]
  by_cases hc : 1 ≤ n.val / 48 + k / 3 % 3 ∧ n.val / 48 + k / 3 % 3 ≤ 48 ∧ 1 ≤ n.val % 48 + k % 3 ∧ n.val % 48 + k % 3 ≤ 48
  · rw [if_pos hc, if_pos hc]
    refine congrArg x0 (funext fun a => ?_)
    match a with
    | ⟨0, _⟩ => rfl
    | ⟨1, _⟩ => rfl
    | ⟨2, _⟩ => exact Fin.ext (by show h.val + k / 9 = (h.val + k / 9) % 50; omega)
    | ⟨3, _⟩ => rfl
  · rw [if_neg hc, if_neg hc]

/-- The body's result block is the block function of the input block: each of its 27 stores is the block function on
    its rectangle, and the rectangles cover the block. -/
theorem out_eq (x0 : Vec Ideal S1x1x50x2304 .f32) : out0_1 (F := Ideal) x0 = blockFn x0 := by
  funext y
  unfold out0_1
  rw [piece0 x0, piece1 x0, piece2 x0, piece3 x0, piece4 x0, piece5 x0, piece6 x0, piece7 x0, piece8 x0, piece9 x0, piece10 x0, piece11 x0, piece12 x0, piece13 x0, piece14 x0, piece15 x0, piece16 x0, piece17 x0, piece18 x0, piece19 x0, piece20 x0, piece21 x0, piece22 x0, piece23 x0, piece24 x0, piece25 x0, piece26 x0]
  refine View.canon_apply_of_pieces (blockFn x0) _ ?_ y (cover0_1 _ _ _ _ _ _ _ _ _ _ _ _ _ _ _ _ _ _ _ _ _ _ _ _ _ _ _ y)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl | rfl | rfl | rfl | rfl | rfl | rfl | rfl
  · exact piece_at 26 (by decide) 2255#32 1#32 1#32 (by decide) (by decide) (by decide) slices_S50x2304_o2_0_S48x2304 x0 inb_S1x1x27x48x2304_S1x1x1x48x2304_0_0_26_0_0
  · exact piece_at 25 (by decide) 2256#32 1#32 0#32 (by decide) (by decide) (by decide) slices_S50x2304_o2_0_S48x2304 x0 inb_S1x1x27x48x2304_S1x1x1x48x2304_0_0_25_0_0
  · exact piece_at 24 (by decide) 2257#32 1#32 4294967295#32 (by decide) (by decide) (by decide) slices_S50x2304_o2_0_S48x2304 x0 inb_S1x1x27x48x2304_S1x1x1x48x2304_0_0_24_0_0
  · exact piece_at 23 (by decide) 2303#32 0#32 1#32 (by decide) (by decide) (by decide) slices_S50x2304_o2_0_S48x2304 x0 inb_S1x1x27x48x2304_S1x1x1x48x2304_0_0_23_0_0
  · exact piece_at 22 (by decide) 0#32 0#32 0#32 (by decide) (by decide) (by decide) slices_S50x2304_o2_0_S48x2304 x0 inb_S1x1x27x48x2304_S1x1x1x48x2304_0_0_22_0_0
  · exact piece_at 21 (by decide) 1#32 0#32 4294967295#32 (by decide) (by decide) (by decide) slices_S50x2304_o2_0_S48x2304 x0 inb_S1x1x27x48x2304_S1x1x1x48x2304_0_0_21_0_0
  · exact piece_at 20 (by decide) 47#32 4294967295#32 1#32 (by decide) (by decide) (by decide) slices_S50x2304_o2_0_S48x2304 x0 inb_S1x1x27x48x2304_S1x1x1x48x2304_0_0_20_0_0
  · exact piece_at 19 (by decide) 48#32 4294967295#32 0#32 (by decide) (by decide) (by decide) slices_S50x2304_o2_0_S48x2304 x0 inb_S1x1x27x48x2304_S1x1x1x48x2304_0_0_19_0_0
  · exact piece_at 18 (by decide) 49#32 4294967295#32 4294967295#32 (by decide) (by decide) (by decide) slices_S50x2304_o2_0_S48x2304 x0 inb_S1x1x27x48x2304_S1x1x1x48x2304_0_0_18_0_0
  · exact piece_at 17 (by decide) 2255#32 1#32 1#32 (by decide) (by decide) (by decide) slices_S50x2304_o1_0_S48x2304 x0 inb_S1x1x27x48x2304_S1x1x1x48x2304_0_0_17_0_0
  · exact piece_at 16 (by decide) 2256#32 1#32 0#32 (by decide) (by decide) (by decide) slices_S50x2304_o1_0_S48x2304 x0 inb_S1x1x27x48x2304_S1x1x1x48x2304_0_0_16_0_0
  · exact piece_at 15 (by decide) 2257#32 1#32 4294967295#32 (by decide) (by decide) (by decide) slices_S50x2304_o1_0_S48x2304 x0 inb_S1x1x27x48x2304_S1x1x1x48x2304_0_0_15_0_0
  · exact piece_at 14 (by decide) 2303#32 0#32 1#32 (by decide) (by decide) (by decide) slices_S50x2304_o1_0_S48x2304 x0 inb_S1x1x27x48x2304_S1x1x1x48x2304_0_0_14_0_0
  · exact piece_at 13 (by decide) 0#32 0#32 0#32 (by decide) (by decide) (by decide) slices_S50x2304_o1_0_S48x2304 x0 inb_S1x1x27x48x2304_S1x1x1x48x2304_0_0_13_0_0
  · exact piece_at 12 (by decide) 1#32 0#32 4294967295#32 (by decide) (by decide) (by decide) slices_S50x2304_o1_0_S48x2304 x0 inb_S1x1x27x48x2304_S1x1x1x48x2304_0_0_12_0_0
  · exact piece_at 11 (by decide) 47#32 4294967295#32 1#32 (by decide) (by decide) (by decide) slices_S50x2304_o1_0_S48x2304 x0 inb_S1x1x27x48x2304_S1x1x1x48x2304_0_0_11_0_0
  · exact piece_at 10 (by decide) 48#32 4294967295#32 0#32 (by decide) (by decide) (by decide) slices_S50x2304_o1_0_S48x2304 x0 inb_S1x1x27x48x2304_S1x1x1x48x2304_0_0_10_0_0
  · exact piece_at 9 (by decide) 49#32 4294967295#32 4294967295#32 (by decide) (by decide) (by decide) slices_S50x2304_o1_0_S48x2304 x0 inb_S1x1x27x48x2304_S1x1x1x48x2304_0_0_9_0_0
  · exact piece_at 8 (by decide) 2255#32 1#32 1#32 (by decide) (by decide) (by decide) slices_S50x2304_o0_0_S48x2304 x0 inb_S1x1x27x48x2304_S1x1x1x48x2304_0_0_8_0_0
  · exact piece_at 7 (by decide) 2256#32 1#32 0#32 (by decide) (by decide) (by decide) slices_S50x2304_o0_0_S48x2304 x0 inb_S1x1x27x48x2304_S1x1x1x48x2304_0_0_7_0_0
  · exact piece_at 6 (by decide) 2257#32 1#32 4294967295#32 (by decide) (by decide) (by decide) slices_S50x2304_o0_0_S48x2304 x0 inb_S1x1x27x48x2304_S1x1x1x48x2304_0_0_6_0_0
  · exact piece_at 5 (by decide) 2303#32 0#32 1#32 (by decide) (by decide) (by decide) slices_S50x2304_o0_0_S48x2304 x0 inb_S1x1x27x48x2304_S1x1x1x48x2304_0_0_5_0_0
  · exact piece_at 4 (by decide) 0#32 0#32 0#32 (by decide) (by decide) (by decide) slices_S50x2304_o0_0_S48x2304 x0 inb_S1x1x27x48x2304_S1x1x1x48x2304_0_0_4_0_0
  · exact piece_at 3 (by decide) 1#32 0#32 4294967295#32 (by decide) (by decide) (by decide) slices_S50x2304_o0_0_S48x2304 x0 inb_S1x1x27x48x2304_S1x1x1x48x2304_0_0_3_0_0
  · exact piece_at 2 (by decide) 47#32 4294967295#32 1#32 (by decide) (by decide) (by decide) slices_S50x2304_o0_0_S48x2304 x0 inb_S1x1x27x48x2304_S1x1x1x48x2304_0_0_2_0_0
  · exact piece_at 1 (by decide) 48#32 4294967295#32 0#32 (by decide) (by decide) (by decide) slices_S50x2304_o0_0_S48x2304 x0 inb_S1x1x27x48x2304_S1x1x1x48x2304_0_0_1_0_0
  · exact piece_at 0 (by decide) 49#32 4294967295#32 4294967295#32 (by decide) (by decide) (by decide) slices_S50x2304_o0_0_S48x2304 x0 inb_S1x1x27x48x2304_S1x1x1x48x2304_0_0_0_0_0

end Cert.KernelIdeal.Block

end
-- ==== Proof.Input.lean ====
/-
  The array the kernel reads, as a function of the input.

  Before the kernel runs, the input volume is padded by one zero row above and below along its first spatial axis
  (48 → 50) and its two other spatial axes are merged into one of 2304 = 48·48 lanes. So the array's entry at
  (b, c, H, n) is the input at (b, c, H − 1, n / 48, n % 48) for 1 ≤ H ≤ 48 and 0 for H = 0 and H = 49: the volume
  padded on all three axes, read at (H, n / 48 + 1, n % 48 + 1).
-/
import proofs.«150925_j2757369004156_1_alg».proof.Proof.Spec
import proofs.«150925_j2757369004156_1_alg».proof.Proof.Gen.KernelIdeal.Frame
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.Input

open Cert.KernelIdeal Cert.KernelIdeal.Gen Cert.Unfold3
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The array the kernel's input window stages: the pad along the first spatial axis, then the merge of the other two. -/
theorem V_main_v1 (c : Dev nD) :
    (V m c main_v1 : S2x16x50x2304.Idx → EReal)
      = shapeCast S2x16x50x2304
          (pad (s := S2x16x48x48x48) (α := EReal) S2x16x50x48x48 ![0, 0, 1, 0, 0] ![0, 0, 1, 0, 0] ![0, 0, 0, 0, 0]
            (m ((c : Thread nD τ).loc main_arg0)) (sitofp (F := Ideal) .f32 (constantI S_ 32 0#32))
            pads_S2x16x48x48x48_S2x16x50x48x48_000_000_110_000_000 h_S_)
          shapeCasts_S2x16x50x48x48_S2x16x50x2304 := by
  dsimp only [V, V0]
  simp only [hostOps0, hostOps0_1, hostOps0_2, List.flatten_cons, List.flatten_nil, List.append_nil, List.cons_append,
    List.nil_append]
  after_results
  simp only [TRef.ofBuf, TRef.toBuf, cast_eq]
  rfl

/-- The one-axis pad read at an index: the input one row up inside, zero on the two border rows. -/
theorem padH_apply (x : FVec Ideal S2x16x48x48x48 .f32) (b : Fin 2) (ch : Fin 16) (H : Fin 50) (w : Fin 48) (d : Fin 48) :
    pad S2x16x50x48x48 ![0, 0, 1, 0, 0] ![0, 0, 1, 0, 0] ![0, 0, 0, 0, 0] x
        (sitofp (F := Ideal) .f32 (constantI S_ 32 0#32)) pads_S2x16x48x48x48_S2x16x50x48x48_000_000_110_000_000 h_S_
        (ix5 b ch H w d)
      = padded x b.val ch.val H.val (w.val + 1) (d.val + 1) := by
  have hb := b.isLt
  have hc := ch.isLt
  have hH := H.isLt
  have hw := w.isLt
  have hd := d.isLt
  unfold padded
  by_cases hin : 1 ≤ H.val ∧ H.val ≤ 48
  · rw [if_pos ⟨hin.1, hin.2, by omega, by omega, by omega, by omega⟩]
    refine (pad_apply_of_inside _ _ _ x _ pads_S2x16x48x48x48_S2x16x50x48x48_000_000_110_000_000 h_S_ (ix5 b ch H w d)
      (ix5 b ch (⟨H.val - 1, by omega⟩ : Fin 48) w d) (fun a => match a with
        | ⟨0, _⟩ => by show b.val = 0 + b.val * (0 + 1); omega
        | ⟨1, _⟩ => by show ch.val = 0 + ch.val * (0 + 1); omega
        | ⟨2, _⟩ => by show H.val = 1 + (H.val - 1) * (0 + 1); omega
        | ⟨3, _⟩ => by show w.val = 0 + w.val * (0 + 1); omega
        | ⟨4, _⟩ => by show d.val = 0 + d.val * (0 + 1); omega)).trans ?_
    refine congrArg x (Eq.symm (xAt_eq _ rfl rfl ?_ ?_ ?_))
    · show H.val - 1 = H.val - 1; rfl
    · show w.val = w.val + 1 - 1; omega
    · show d.val = d.val + 1 - 1; omega
  · rw [if_neg (fun h => hin ⟨h.1, h.2.1⟩)]
    refine (pad_apply_of_not_inside _ _ _ x _ pads_S2x16x48x48x48_S2x16x50x48x48_000_000_110_000_000 h_S_ (ix5 b ch H w d)
      (2 : Fin 5) (by
        show ¬(1 ≤ H.val ∧ (H.val - 1) % (0 + 1) = 0 ∧ (H.val - 1) / (0 + 1) < 48)
        omega)).trans ?_
    show FloatOps.sitofp (F := Ideal) .f32 (0#32) = 0
    exact sitofp_zero

/-- The staged array at batch b, channel ch, row H and lane n is the fully padded volume at (H, n / 48 + 1, n % 48 + 1). -/
theorem V_main_v1_apply (c : Dev nD) (b : Fin 2) (ch : Fin 16) (H : Fin 50) (n : Fin 2304) :
    (V m c main_v1 : S2x16x50x2304.Idx → EReal) (ix4 b ch H n)
      = padded (m ((c : Thread nD τ).loc main_arg0)) b.val ch.val H.val (n.val / 48 + 1) (n.val % 48 + 1) := by
  have hb := b.isLt
  have hc := ch.isLt
  have hH := H.isLt
  have hn := n.isLt
  rw [V_main_v1]
  refine (shapeCast_apply _ shapeCasts_S2x16x50x48x48_S2x16x50x2304 (ix4 b ch H n)
    (ix5 b ch H (⟨n.val / 48, by omega⟩ : Fin 48) (⟨n.val % 48, Nat.mod_lt _ (by decide)⟩ : Fin 48)) (by
      rw [Shape.rowMajor_val_four, Shape.rowMajor_val_five]
      show (((b.val * 16 + ch.val) * 50 + H.val) * 48 + n.val / 48) * 48 + n.val % 48
        = ((b.val * 16 + ch.val) * 50 + H.val) * 2304 + n.val
      omega)).trans ?_
  exact padH_apply _ b ch H _ _

end Cert.KernelIdeal.Input

end
-- ==== Proof.Whole.lean ====
/-
  The kernel's whole result as a function of the input.

  The grid has one point per (batch, channel) pair. At the point (b, c) the input window stages rows (b, c, ·, ·) of
  the padded-and-merged array — a [50, 2304] slab — and the output window writes back the [27, 48, 2304] block
  (b, c, ·, ·, ·). So the output array at (b, c, k, h, n) is the block function of that slab at (k, h, n): the padded
  volume at (h + k / 9, n / 48 + k / 3 % 3, n % 48 + k % 3), which is the k-th neighbour of the voxel (h, n / 48, n % 48).
  The blocks tile the array, and the last step of the program merges (c, k) and (h, n): the result is the unfold.
-/
import proofs.«150925_j2757369004156_1_alg».proof.Proof.Spec
import proofs.«150925_j2757369004156_1_alg».proof.Proof.Block
import proofs.«150925_j2757369004156_1_alg».proof.Proof.Input
import Idealize.ShloMosaic.Lib.ValueIdx
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.Unfold3 Cert.KernelIdeal.Block Cert.KernelIdeal.Input
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The output array before the last merge: slot k of channel c of batch b, row h, lane n. -/
def arrFn (x : FVec Ideal S2x16x48x48x48 .f32) : FVec Ideal S2x16x27x48x2304 .f32 := fun o =>
  patch x (o 0).val (o 1).val (o 2).val (o 3).val ((o 4).val / 48) ((o 4).val % 48)

/-- The neighbour read through the lane rotation is the neighbour read through the three-axis pad: on the lanes in
    range the rotated lane n + 48·j + l − 49 has coordinates (n / 48 + j − 1, n % 48 + l − 1), and off them the padded
    volume is zero because one of its two last coordinates falls on the border. -/
theorem neighbour_eq (x : FVec Ideal S2x16x48x48x48 .f32) (B C k h n : Nat) (hk : k < 27) (hh : h < 48) (hn : n < 2304) :
    (if 1 ≤ n / 48 + k / 3 % 3 ∧ n / 48 + k / 3 % 3 ≤ 48 ∧ 1 ≤ n % 48 + k % 3 ∧ n % 48 + k % 3 ≤ 48
      then padded x B C ((h + k / 9) % 50) ((n + 48 * (k / 3 % 3) + k % 3 + 2255) % 2304 / 48 + 1)
        ((n + 48 * (k / 3 % 3) + k % 3 + 2255) % 2304 % 48 + 1)
      else 0)
      = patch x B C k h (n / 48) (n % 48) := by
  unfold patch
  by_cases hc : 1 ≤ n / 48 + k / 3 % 3 ∧ n / 48 + k / 3 % 3 ≤ 48 ∧ 1 ≤ n % 48 + k % 3 ∧ n % 48 + k % 3 ≤ 48
  · rw [if_pos hc]
    have e1 : (h + k / 9) % 50 = h + k / 9 := by omega
    have e2 : (n + 48 * (k / 3 % 3) + k % 3 + 2255) % 2304 / 48 + 1 = n / 48 + k / 3 % 3 := by omega
    have e3 : (n + 48 * (k / 3 % 3) + k % 3 + 2255) % 2304 % 48 + 1 = n % 48 + k % 3 := by omega
    rw [e1, e2, e3]
  · rw [if_neg hc]
    unfold padded
    rw [if_neg (fun h' => hc ⟨h'.2.2.1, h'.2.2.2.1, h'.2.2.2.2.1, h'.2.2.2.2.2⟩)]

/-- The printed index maps, decided over the 32 grid points: both windows sit at block (b, c) of their arrays, all
    other block coordinates zero. -/
theorem idx_facts : ∀ t : Fin cfg0.N,
    win0_0.index t (0 : Fin 4) = win0_1.index t (0 : Fin 5) ∧ win0_0.index t (1 : Fin 4) = win0_1.index t (1 : Fin 5)
    ∧ win0_0.index t (2 : Fin 4) = 0 ∧ win0_0.index t (3 : Fin 4) = 0
    ∧ win0_1.index t (2 : Fin 5) = 0 ∧ win0_1.index t (3 : Fin 5) = 0 ∧ win0_1.index t (4 : Fin 5) = 0
    ∧ win0_1.index t (0 : Fin 5) ≤ 1 ∧ win0_1.index t (1 : Fin 5) ≤ 15 :=
  (by decide +kernel : ∀ t : Fin grid0.N, _)

/-- Every (batch, channel) pair is some grid point's block. -/
theorem idx_onto : ∀ (q0 : Fin 2) (q1 : Fin 16), ∃ t : Fin cfg0.N, win0_1.index t = ![q0.val, q1.val, 0, 0, 0] :=
  (by decide +kernel : ∀ (q0 : Fin 2) (q1 : Fin 16), ∃ t : Fin grid0.N, win0_1.index t = ![q0.val, q1.val, 0, 0, 0])

/-- A block of the staged array read at a local index is the array at the block's embedding of that index. -/
theorem read_blk0 (t : Fin cfg0.N) (A : S2x16x50x2304.Idx → EReal) (z : S1x1x50x2304.Idx) :
    ((cfg0.win 0).blk t).view.read (Elt Ideal) A z = A (((cfg0.win 0).blk t).view.emb z) := rfl

/-- The staged array, named as the input window's array, at an index. -/
theorem V_arr0_apply (c : Dev nD) (b : Fin 2) (ch : Fin 16) (H : Fin 50) (n : Fin 2304) :
    (V m c (Pipeline.arrRef spec0 0) : S2x16x50x2304.Idx → EReal) (ix4 b ch H n)
      = padded (m ((c : Thread nD τ).loc main_arg0)) b.val ch.val H.val (n.val / 48 + 1) (n.val % 48 + 1) :=
  V_main_v1_apply m c b ch H n

/-- What a grid point writes back is its block of `arrFn` of the input. -/
theorem flushed_eq (c : Dev nD) (t : Fin cfg0.N) :
    (dats m 0 c).flushed 1 t
      = ((cfg0.win 1).blk t).view.read (Elt Ideal) (arrFn (m ((c : Thread nD τ).loc main_arg0))) := by
  show (cfg0.win 1).cut (grid0.coords t) ((dats m 0 c).after 1 t) = _
  rw [after0_1, out_eq]
  obtain ⟨e0, e1, e2, e3, e4, e5, e6, e7, e8⟩ := idx_facts t
  funext y
  have hy0 : (y 0).val < 1 := (y 0).isLt
  have hy1 : (y 1).val < 1 := (y 1).isLt
  have hy2 : (y 2).val < 27 := (y 2).isLt
  have hy3 : (y 3).val < 48 := (y 3).isLt
  have hy4 : (y 4).val < 2304 := (y 4).isLt
  show blockFn (iblk m c 0 t) y = arrFn (m ((c : Thread nD τ).loc main_arg0)) (((cfg0.win 1).blk t).view.emb y)
  unfold blockFn arrFn
  have o0 : ((((cfg0.win 1).blk t).view.emb y) 0).val = win0_1.index t (0 : Fin 5) := by
    show win0_1.index t (0 : Fin 5) * 1 + 1 * (y 0).val = _; omega
  have o1 : ((((cfg0.win 1).blk t).view.emb y) 1).val = win0_1.index t (1 : Fin 5) := by
    show win0_1.index t (1 : Fin 5) * 1 + 1 * (y 1).val = _; omega
  have o2 : ((((cfg0.win 1).blk t).view.emb y) 2).val = (y 2).val := by
    show win0_1.index t (2 : Fin 5) * 27 + 1 * (y 2).val = _; omega
  have o3 : ((((cfg0.win 1).blk t).view.emb y) 3).val = (y 3).val := by
    show win0_1.index t (3 : Fin 5) * 48 + 1 * (y 3).val = _; omega
  have o4 : ((((cfg0.win 1).blk t).view.emb y) 4).val = (y 4).val := by
    show win0_1.index t (4 : Fin 5) * 2304 + 1 * (y 4).val = _; omega
  rw [o0, o1, o2, o3, o4]
  refine Eq.trans ?_ (neighbour_eq _ (win0_1.index t (0 : Fin 5)) (win0_1.index t (1 : Fin 5)) (y 2).val (y 3).val (y 4).val hy2 hy3 hy4)
  refine if_congr Iff.rfl ?_ rfl
  have hemb : ((cfg0.win 0).blk t).view.emb
      (ix4 (0 : Fin 1) (0 : Fin 1) (⟨((y 3).val + (y 2).val / 9) % 50, Nat.mod_lt _ (by decide)⟩ : Fin 50)
        (⟨((y 4).val + 48 * ((y 2).val / 3 % 3) + (y 2).val % 3 + 2255) % 2304, Nat.mod_lt _ (by decide)⟩ : Fin 2304))
      = ix4 (⟨win0_1.index t (0 : Fin 5), by omega⟩ : Fin 2) (⟨win0_1.index t (1 : Fin 5), by omega⟩ : Fin 16)
          (⟨((y 3).val + (y 2).val / 9) % 50, Nat.mod_lt _ (by decide)⟩ : Fin 50)
          (⟨((y 4).val + 48 * ((y 2).val / 3 % 3) + (y 2).val % 3 + 2255) % 2304, Nat.mod_lt _ (by decide)⟩ : Fin 2304) := by
    funext a; apply Fin.ext
    match a with
    | ⟨0, _⟩ => show win0_0.index t (0 : Fin 4) * 1 + 1 * 0 = win0_1.index t (0 : Fin 5); omega
    | ⟨1, _⟩ => show win0_0.index t (1 : Fin 4) * 1 + 1 * 0 = win0_1.index t (1 : Fin 5); omega
    | ⟨2, _⟩ => show win0_0.index t (2 : Fin 4) * 50 + 1 * (((y 3).val + (y 2).val / 9) % 50) = ((y 3).val + (y 2).val / 9) % 50; omega
    | ⟨3, _⟩ => show win0_0.index t (3 : Fin 4) * 2304 + 1 * (((y 4).val + 48 * ((y 2).val / 3 % 3) + (y 2).val % 3 + 2255) % 2304) = ((y 4).val + 48 * ((y 2).val / 3 % 3) + (y 2).val % 3 + 2255) % 2304; omega
  -- the input block at (row, lane) is the staged array at (b, c, row, lane)
  unfold iblk
  rw [read_blk0, hemb]
  exact V_arr0_apply m c _ _ _ _

/-- An index of the output array is in a grid point's block iff each coordinate is in the block's range on its axis. -/
theorem mem_blk (t : Fin cfg0.N) (i : S2x16x27x48x2304.Idx) :
    i ∈ ((cfg0.win 1).blk t).view.set ↔ ∀ a : Fin 5, win0_1.index t a * S1x1x27x48x2304.size a ≤ (i a).val
      ∧ (i a).val < win0_1.index t a * S1x1x27x48x2304.size a + S1x1x27x48x2304.size a := by
  show i ∈ ((View.whole main_v2).slice (win0_1.rect t)).set ↔ _
  rw [View.set_slice_whole, Rect.mem_set_unit]
  exact Iff.rfl

/-- The blocks tile the output array: the index (b, c, ·, ·, ·) lies in the block of the point (b, c). -/
theorem cover (i : S2x16x27x48x2304.Idx) :
    ∃ t : Fin cfg0.N, (cfg0.win 1).flush t = true ∧ i ∈ ((cfg0.win 1).blk t).view.set := by
  have hi0 : (i 0).val < 2 := (i 0).isLt
  have hi1 : (i 1).val < 16 := (i 1).isLt
  have hi2 : (i 2).val < 27 := (i 2).isLt
  have hi3 : (i 3).val < 48 := (i 3).isLt
  have hi4 : (i 4).val < 2304 := (i 4).isLt
  obtain ⟨t, ht⟩ := idx_onto ⟨(i 0).val, hi0⟩ ⟨(i 1).val, hi1⟩
  have q0 : win0_1.index t (0 : Fin 5) = (i 0).val := congrFun ht 0
  have q1 : win0_1.index t (1 : Fin 5) = (i 1).val := congrFun ht 1
  have q2 : win0_1.index t (2 : Fin 5) = 0 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 1 ≤ (i 1).val ∧ (i 1).val < win0_1.index t (1 : Fin 5) * 1 + 1; omega
  | ⟨2, _⟩ => show win0_1.index t (2 : Fin 5) * 27 ≤ (i 2).val ∧ (i 2).val < win0_1.index t (2 : Fin 5) * 27 + 27; omega
  | ⟨3, _⟩ => show win0_1.index t (3 : Fin 5) * 48 ≤ (i 3).val ∧ (i 3).val < win0_1.index t (3 : Fin 5) * 48 + 48; omega
  | ⟨4, _⟩ => show win0_1.index t (4 : Fin 5) * 2304 ≤ (i 4).val ∧ (i 4).val < win0_1.index t (4 : Fin 5) * 2304 + 2304; omega

/-- The output array after the region is `arrFn` of the input. -/
theorem final (c : Dev nD) : (dats m 0 c).arrAt 1 cfg0.N = arrFn (m ((c : Thread nD τ).loc main_arg0)) :=
  (dats m 0 c).arrAt_eq_of_cover 1 (arrFn (m ((c : Thread nD τ).loc main_arg0))) (fun t _ => flushed_eq m c t) cover

/-- The last step merges (c, k) into one axis and (h, n) into another: the merged array is the unfold. -/
theorem merge_eq (x : FVec Ideal S2x16x48x48x48 .f32) :
    shapeCast S2x432x110592 (arrFn x) shapeCasts_S2x16x27x48x2304_S2x432x110592 = G x := by
  funext o
  have h0 : (o 0).val < 2 := (o 0).isLt
  have h1 : (o 1).val < 432 := (o 1).isLt
  have h2 : (o 2).val < 110592 := (o 2).isLt
  refine (shapeCast_apply _ shapeCasts_S2x16x27x48x2304_S2x432x110592 o
    (ix5 (⟨(o 0).val, h0⟩ : Fin 2) (⟨(o 1).val / 27, by omega⟩ : Fin 16) (⟨(o 1).val % 27, Nat.mod_lt _ (by decide)⟩ : Fin 27)
      (⟨(o 2).val / 2304, by omega⟩ : Fin 48) (⟨(o 2).val % 2304, Nat.mod_lt _ (by decide)⟩ : Fin 2304)) (by
      rw [Shape.rowMajor_val_five, Shape.rowMajor_val_three]
      show ((((o 0).val * 16 + (o 1).val / 27) * 27 + (o 1).val % 27) * 48 + (o 2).val / 2304) * 2304 + (o 2).val % 2304
        = ((o 0).val * 432 + (o 1).val) * 110592 + (o 2).val
      omega)).trans ?_
  show patch x (o 0).val ((o 1).val / 27) ((o 1).val % 27) ((o 2).val / 2304) ((o 2).val % 2304 / 48) ((o 2).val % 2304 % 48)
    = patch x (o 0).val ((o 1).val / 27) ((o 1).val % 27) ((o 2).val / 2304) ((o 2).val / 48 % 48) ((o 2).val % 48)
  have e1 : (o 2).val % 2304 / 48 = (o 2).val / 48 % 48 := by omega
  have e2 : (o 2).val % 2304 % 48 = (o 2).val % 48 := by omega
  rw [e1, e2]

/-- What the merge after the region leaves in the result buffer. -/
theorem tail_eq (c : Dev nD) :
    Pipeline.afterTail₀ cfgs (dats m) 0 (V0 m) [hostOps1] c main_v3 = G (m ((c : Thread nD τ).loc main_arg0)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = arrFn (m ((c : Thread nD τ).loc main_arg0)) :=
    (Pipeline.withArrays_arr spec0 launch0.win.arr_inj c _ _ 1).trans (final m c)
  rw [hw]
  exact merge_eq _

/-- The kernel program runs, ends with the unfold of its argument in its result buffer, and leaves the argument as
    it was. -/
theorem run : θ_run defs (onTc (τ := τ) (main (F := Ideal))) ⟨m, fun _ => 0, ρ⟩ fun r => ∀ c : Dev nD,
      r.2.mem ((c.tc : Thread nD τ).loc main_v3) = G (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c)⟩)
    (run_main m ρ)

end Cert.KernelIdeal.Whole

end
-- ==== Proof.lean ====
/-
  The kernel and the reference compute the same 3×3×3 unfold of a volume.

  For an input x of shape [2, 16, 48, 48, 48] both programs return, at (b, 27·c + k, 2304·h + 48·w + d) with
  k = 9·i + 3·j + l, the input at (b, c, h + i − 1, w + j − 1, d + l − 1) inside the volume and 0 beyond its border
  (Proof/Spec.lean, the function `G`).
  The reference pads all three spatial axes with zeros, cuts the 27 shifted windows, stacks them and merges axes
  (Proof/RefSide.lean reads its result at an index). The kernel pads only the first spatial axis, merges the other two
  into 2304 lanes, and for each (batch, channel) pair writes 27 slots: rows i … i + 47 of the padded slab, rotated along
  the lanes by (49 − 48·j − l) mod 2304 and multiplied by a 0/1 mask of the lanes whose two coordinates stay in range
  (Proof/Pieces.lean, Proof/PieceAt.lean: one slot at an index; Proof/Block.lean: the whole block; Proof/Input.lean: the
  array the kernel reads; Proof/Whole.lean: the blocks tile the result and the last merge gives `G`).
  On the lanes in range the rotation reads exactly the shifted voxel, and off them the mask is 0 where the reference
  reads the zero border; a product with 1 is the factor and a product with 0 is 0 on the extended reals, so the two
  results are equal entry by entry with no condition on the input. The ideal pass rewrote nothing, so `preserves` is
  trivial; the kernels' frames are the generated ones, and the reference's frame is its run with the result dropped.
-/
import proofs.«150925_j2757369004156_1_alg».proof.Defs
import proofs.«150925_j2757369004156_1_alg».proof.Proof.Gen.Kernel
import proofs.«150925_j2757369004156_1_alg».proof.Proof.Gen.Kernel.Skeleton
import proofs.«150925_j2757369004156_1_alg».proof.Proof.Gen.Kernel.Launch
import proofs.«150925_j2757369004156_1_alg».proof.Proof.Gen.Kernel.Points
import proofs.«150925_j2757369004156_1_alg».proof.Proof.Gen.Kernel.Frame
import proofs.«150925_j2757369004156_1_alg».proof.Proof.Gen.KernelIdeal
import proofs.«150925_j2757369004156_1_alg».proof.Proof.Gen.KernelIdeal.Skeleton
import proofs.«150925_j2757369004156_1_alg».proof.Proof.Gen.KernelIdeal.Launch
import proofs.«150925_j2757369004156_1_alg».proof.Proof.Gen.KernelIdeal.Points
import proofs.«150925_j2757369004156_1_alg».proof.Proof.Gen.KernelIdeal.Frame
import proofs.«150925_j2757369004156_1_alg».proof.Proof.Gen.ReferenceIdeal
import proofs.«150925_j2757369004156_1_alg».proof.Proof.Gen.Pre_finite_inputs
import proofs.«150925_j2757369004156_1_alg».proof.Proof.RefRun
import proofs.«150925_j2757369004156_1_alg».proof.Proof.RefRead
import proofs.«150925_j2757369004156_1_alg».proof.Proof.RefSide
import proofs.«150925_j2757369004156_1_alg».proof.Proof.Whole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the unfold `G` of the (agreeing) arguments in their result buffers. -/
theorem algebraic : Cert.algebraic_KernelIdeal_ReferenceIdeal := by
  intro m ρ m' ρ' _ hagree
  refine ⟨fun c => Cert.Unfold3.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v58_eq, Cert.RefSide.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
